-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S16000x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000 : Shape := ⟨1, ![2000000]⟩
abbrev S32x32 : Shape := ⟨2, ![32, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S32x32 .f32) (main_arg9 : FVec F S32 .f32) (main_arg10 : FVec F S32x1 .f32) (main_arg11 : FVec F S1 .f32) (main_arg12 : FVec F S32x1 .f32) (main_arg13 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S32 .f32) (main_arg6 : FVec F S32x3 .f32) (main_arg7 : FVec F S3 .f32) (main_arg8 : FVec F S32x32 .f32) (main_arg9 : FVec F S32 .f32) (main_arg10 : FVec F S32x1 .f32) (main_arg11 : FVec F S1 .f32) (main_arg12 : FVec F S32x1 .f32) (main_arg13 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x3 .f32 := Host.absf main_arg6
  let main_cst_8 : FVec F S_ .f32 := constant S_ .f32 0x7F800000#32
  let main_v25 : FVec F S32x3 .f32 := broadcastInDim S32x3 ![] bcast_S_S32x3 main_cst_8
  let main_v26 : IVec S32x3 1 := cmpf .olt main_v24 main_v25
  let main_c_9 : IVec S_ 1 := constantI S_ 1 1#1
  let main_v27 : IVec S_ 1 := (fun x v => Host.reduce IntOp.andi x v reducesTo_S32x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S2000000x32 .f32) (main_arg1 : IVec S2000000 32) (main_arg2 : FVec F S32x32 .f32) (main_arg3 : FVec F S32 .f32) (main_arg4 : FVec F S32 .f32) (main_arg5 : FVec F S32 .f32) (main_arg6 : FVec F S32x3 .f32) (main_arg7 : FVec F S3 .f32) (main_arg8 : FVec F S32x32 .f32) (main_arg9 : FVec F S32 .f32) (main_arg10 : FVec F S32x1 .f32) (main_arg11 : FVec F S1 .f32) (main_arg12 : FVec F S32x1 .f32) (main_arg13 : FVec F S1 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_v13 main_v16
-- ==== Kernel.lean ====
abbrev S2000000x32 : Shape := ⟨2, ![2000000, 32]⟩
abbrev S2000000 : Shape := ⟨1, ![2000000]⟩
abbrev S32x32 : Shape := ⟨2, ![32, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S1x2000000 : Shape := ⟨2, ![1, 2000000]⟩
abbrev S2000000x1 : Shape := ⟨2, ![2000000, 1]⟩
abbrev S8x32 : Shape := ⟨2, ![8, 32]⟩
abbrev S8 : Shape := ⟨1, ![8]⟩
abbrev S16000x32 : Shape := ⟨2, ![16000, 32]⟩
abbrev S1x16000 : Shape := ⟨2, ![1, 16000]⟩
abbrev S16000x1 : Shape := ⟨2, ![16000, 1]⟩
abbrev S1x32 : Shape := ⟨2, ![1, 32]⟩
abbrev S1x1 : Shape := ⟨2, ![1, 1]⟩
abbrev S8x16000 : Shape := ⟨2, ![8, 16000]⟩
abbrev S_ : Shape := ⟨0, ![]⟩
abbrev S8x1 : Shape := ⟨2, ![8, 1]⟩
abbrev S3x32 : Shape := ⟨2, ![3, 32]⟩
abbrev S3x1 : Shape := ⟨2, ![3, 1]⟩
abbrev S3x2000000 : Shape := ⟨2, ![3, 2000000]⟩
abbrev S3x16000 : Shape := ⟨2, ![3, 16000]⟩
abbrev S32x16000 : Shape := ⟨2, ![32, 16000]⟩
abbrev S2000000x3 : Shape := ⟨2, ![2000000, 3]⟩

abbrev nBuf : Space → Nat
  | .hbm => 51
  | .vmem => 28
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x3, .f32⟩
  | .hbm, ⟨7, _⟩ => ⟨S3, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S32x1, .f32⟩
  | .hbm, ⟨13, _⟩ => ⟨S1, .f32⟩
  | .hbm, ⟨14, _⟩ => ⟨S1x2000000, .i32⟩
  | .hbm, ⟨15, _⟩ => ⟨S2000000x1, .f32⟩
  | .hbm, ⟨16, _⟩ => ⟨S32, .f32⟩
  | .hbm, ⟨17, _⟩ => ⟨S32, .f32⟩
  | .hbm, ⟨18, _⟩ => ⟨S8x32, .f32⟩
  | .hbm, ⟨19, _⟩ => ⟨S8, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8x1, .f32⟩
  | .hbm, ⟨35, _⟩ => ⟨S8x32, .f32⟩
  | .hbm, ⟨36, _⟩ => ⟨S8x32, .f32⟩
  | .hbm, ⟨37, _⟩ => ⟨S8x1, .f32⟩
  | .hbm, ⟨38, _⟩ => ⟨S1x1, .f32⟩
  | .hbm, ⟨39, _⟩ => ⟨S8x1, .f32⟩
  | .hbm, ⟨40, _⟩ => ⟨S8x1, .f32⟩
  | .hbm, ⟨41, _⟩ => ⟨S32x32, .f32⟩
  | .hbm, ⟨42, _⟩ => ⟨S3x32, .f32⟩
  | .hbm, ⟨43, _⟩ => ⟨S32x1, .f32⟩
  | .hbm, ⟨44, _⟩ => ⟨S3x1, .f32⟩
  | .hbm, ⟨45, _⟩ => ⟨S32x1, .f32⟩
  | .hbm, ⟨46, _⟩ => ⟨S32x1, .f32⟩
  | .hbm, ⟨47, _⟩ => ⟨S32x1, .f32⟩
  | .hbm, ⟨48, _⟩ => ⟨S32x1, .f32⟩
  | .hbm, ⟨49, _⟩ => ⟨S3x2000000, .f32⟩
  | .hbm, ⟨50, _⟩ => ⟨S2000000x3, .f32⟩
  | .local _ .vmem, ⟨0, _⟩ => ⟨S16000x32, .f32⟩
  | .local _ .vmem, ⟨1, _⟩ => ⟨S16000x32, .f32⟩
  | .local _ .vmem, ⟨2, _⟩ => ⟨S1x16000, .i32⟩
  | .local _ .vmem, ⟨3, _⟩ => ⟨S1x16000, .i32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x1, .f32⟩
  | .local _ .vmem, ⟨9, _⟩ => ⟨S1, .f32⟩
  | .local _ .vmem, ⟨10, _⟩ => ⟨S16000x1, .f32⟩
  | .local _ .vmem, ⟨11, _⟩ => ⟨S16000x1, .f32⟩
  | .local _ .vmem, ⟨12, _⟩ => ⟨S32, .f32⟩
  | .local _ .vmem, ⟨13, _⟩ => ⟨S32, .f32⟩
  | .local _ .vmem, ⟨14, _⟩ => ⟨S8x32, .f32⟩
  | .local _ .vmem, ⟨15, _⟩ => ⟨S8, .f32⟩
  | .local _ .vmem, ⟨16, _⟩ => ⟨S16000x32, .f32⟩
  | .local _ .vmem, ⟨17, _⟩ => ⟨S16000x32, .f32⟩
  | .local _ .vmem, ⟨18, _⟩ => ⟨S32x1, .f32⟩
  | .local _ .vmem, ⟨19, _⟩ => ⟨S32x1, .f32⟩
  | .local _ .vmem, ⟨20, _⟩ => ⟨S32x1, .f32⟩
  | .local _ .vmem, ⟨21, _⟩ => ⟨S32x1, .f32⟩
  | .local _ .vmem, ⟨22, _⟩ => ⟨S32x32, .f32⟩
  | .local _ .vmem, ⟨23, _⟩ => ⟨S32x1, .f32⟩
  | .local _ .vmem, ⟨24, _⟩ => ⟨S3x32, .f32⟩
  | .local _ .vmem, ⟨25, _⟩ => ⟨S3x1, .f32⟩
  | .local _ .vmem, ⟨26, _⟩ => ⟨S3x16000, .f32⟩
  | .local _ .vmem, ⟨27, _⟩ => ⟨S3x16000, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev main_v1_4 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3x16000 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S2000000_S1x2000000 : S2000000.ShapeCasts S1x2000000
  inb_S32_S32_0 : ∀ a, (![0] : Fin 1 → Nat) a + S32.size a ≤ S32.size a
  h_S32 : 0 < S32.numel
  inb_S8x32_S8x32_0_0 : ∀ a, (![0, 0] : Fin 2 → Nat) a + S8x32.size a ≤ S8x32.size a
  h_S8x32 : 0 < S8x32.numel
  inb_S8_S8_0 : ∀ a, (![0] : Fin 1 → Nat) a + S8.size a ≤ S8.size a
  h_S8 : 0 < S8.numel
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32_S1x32 : S32.ShapeCasts S1x32
  broadcasts_S1x32_S16000x32 : S1x32.Broadcasts S16000x32
  shapeCasts_S32_S32 : S32.ShapeCasts S32
  reduces_S16000x32_S32 : S16000x32.Reduces [0] S32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  iota_S8x16000_d0_w32 : S8x16000.Iotas .tc 32 [0]
  broadcasts_S1x16000_S8x16000 : S1x16000.Broadcasts S8x16000
  natLt_1_32 : 1 < 32
  reduces_S8x16000_S8 : S8x16000.Reduces [1] S8
  shapeCasts_S8x32_S8x32 : S8x32.ShapeCasts S8x32
  shapeCasts_S8_S8 : S8.ShapeCasts S8
  bcast_S_S32 : S_.BroadcastsInDim S32 (![] : Fin 0 → Fin S32.rank)
  bcast_S_S8 : S_.BroadcastsInDim S8 (![] : Fin 0 → Fin S8.rank)
  bcast_S8_S8x1_0 : S8.BroadcastsInDim S8x1 (![0] : Fin 1 → Fin S8x1.rank)
  bcast_S8x1_S8x32_0_1 : S8x1.BroadcastsInDim S8x32 (![0, 1] : Fin 2 → Fin S8x32.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  transposes_S32x32_S32x32_1_0 : S32x32.Transposes [1, 0] S32x32
  transposes_S32x3_S3x32_1_0 : S32x3.Transposes [1, 0] S3x32
  shapeCasts_S32_S32x1 : S32.ShapeCasts S32x1
  shapeCasts_S3_S3x1 : S3.ShapeCasts S3x1
  transposes_S16000x32_p1_0_S32x16000 : S16000x32.Transposes [1, 0] S32x16000
  shapeCasts_S32x32_S32x32 : S32x32.ShapeCasts S32x32
  shapeCasts_S32x1_S32x1 : S32x1.ShapeCasts S32x1
  broadcasts_S32x1_S32x16000 : S32x1.Broadcasts S32x16000
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16000 : S3x1.Broadcasts S3x16000
  inb_S3x16000_S3x16000_0_0 : ∀ a, (![0, 0] : Fin 2 → Nat) a + S3x16000.size a ≤ S3x16000.size a
  h_S3x16000 : 0 < S3x16000.numel
  transposes_S3x2000000_S2000000x3_1_0 : S3x2000000.Transposes [1, 0] S2000000x3
  dot_S16000x32_S32x32_S16000x32_1_0_0_1_n_n_wf : DotDims.WF S16000x32 S32x32 S16000x32 [1] [0] [0] [1] [] []
  dot_S16000x32_S32x1_S16000x1_1_0_0_1_n_n_wf : DotDims.WF S16000x32 S32x1 S16000x1 [1] [0] [0] [1] [] []
  dot_S8x16000_S16000x32_S8x32_1_0_0_1_n_n_wf : DotDims.WF S8x16000 S16000x32 S8x32 [1] [0] [0] [1] [] []
  dot_S8x32_S32x1_S8x1_1_0_0_1_n_n_wf : DotDims.WF S8x32 S32x1 S8x1 [1] [0] [0] [1] [] []
  dot_S32x32_S32x16000_S32x16000_1_0_0_1_n_n_wf : DotDims.WF S32x32 S32x16000 S32x16000 [1] [0] [0] [1] [] []
  dot_S3x32_S32x16000_S3x16000_1_0_0_1_n_n_wf : DotDims.WF S3x32 S32x16000 S3x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S2000000x32.size a
  hwx0_0 : ∀ i : grid0.Coords, EltTy.bits .f32 = 32 ∨ (Rect.block (s := S2000000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2000000.size a
  hwx0_1 : ∀ i : grid0.Coords, EltTy.bits .i32 = 32 ∨ (Rect.block (s := S1x2000000) S1x16000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16000x1.size a ≤ S2000000x1.size a
  hwx0_8 : ∀ i : grid0.Coords, EltTy.bits .f32 = 32 ∨ (Rect.block (s := S2000000x1) S16000x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x32.size a ≤ S8x32.size a
  hwx0_11 : ∀ i : grid0.Coords, EltTy.bits .f32 = 32 ∨ (Rect.block (s := S8x32) S8x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S2000000x32.size a
  hwx1_0 : ∀ i : grid1.Coords, EltTy.bits .f32 = 32 ∨ (Rect.block (s := S2000000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x32.size a ≤ S3x32.size a
  hwx1_7 : ∀ i : grid1.Coords, EltTy.bits .f32 = 32 ∨ (Rect.block (s := S3x32) S3x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x1.size a ≤ S3x1.size a
  hwx1_8 : ∀ i : grid1.Coords, EltTy.bits .f32 = 32 ∨ (Rect.block (s := S3x1) S3x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3x16000.size a ≤ S3x2000000.size a
  hwx1_9 : ∀ i : grid1.Coords, EltTy.bits .f32 = 32 ∨ (Rect.block (s := S3x2000000) S3x16000.size (cc1_transform_9 i) (hinb1_9 i)).WholeWords (EltTy.packing .f32)

variable [Facts₀]

def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def dot_S16000x32_S32x1_S16000x1_1_0_0_1_n_n : DotDims S16000x32 S32x1 S16000x1 where
  lhsContracting := [1]
  rhsContracting := [0]
  lhsNonContracting := [0]
  rhsNonContracting := [1]
  lhsBatch := []
  rhsBatch := []
  wf := dot_S16000x32_S32x1_S16000x1_1_0_0_1_n_n_wf
def dot_S8x16000_S16000x32_S8x32_1_0_0_1_n_n : DotDims S8x16000 S16000x32 S8x32 where
  lhsContracting := [1]
  rhsContracting := [0]
  lhsNonContracting := [0]
  rhsNonContracting := [1]
  lhsBatch := []
  rhsBatch := []
  wf := dot_S8x16000_S16000x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf
def dot_S32x32_S32x16000_S32x16000_1_0_0_1_n_n : DotDims S32x32 S32x16000 S32x16000 where
  lhsContracting := [1]
  rhsContracting := [0]
  lhsNonContracting := [0]
  rhsNonContracting := [1]
  lhsBatch := []
  rhsBatch := []
  wf := dot_S32x32_S32x16000_S32x16000_1_0_0_1_n_n_wf
def dot_S3x32_S32x16000_S3x16000_1_0_0_1_n_n : DotDims S3x32 S32x16000 S3x16000 where
  lhsContracting := [1]
  rhsContracting := [0]
  lhsNonContracting := [0]
  rhsNonContracting := [1]
  lhsBatch := []
  rhsBatch := []
  wf := dot_S3x32_S32x16000_S3x16000_1_0_0_1_n_n_wf

abbrev win0_0 : Pipeline.Window sig grid0 :=
  Pipeline.Window.ofSpec (Memref.whole main_arg0) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S16000x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S32.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_2) S32.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1_3) S8x32.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1_4) S8.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S3x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S3x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S3x16000.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S2000000 : Shape := ⟨1, ![2000000]⟩
abbrev S32x32 : Shape := ⟨2, ![32, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S1x32 : Shape := ⟨2, ![1, 32]⟩
abbrev S_ : Shape := ⟨0, ![]⟩
abbrev S2000000x3 : Shape := ⟨2, ![2000000, 3]⟩
abbrev S1x3 : Shape := ⟨2, ![1, 3]⟩
abbrev S2000000x1 : Shape := ⟨2, ![2000000, 1]⟩
abbrev S1x1 : Shape := ⟨2, ![1, 1]⟩
abbrev S8 : Shape := ⟨1, ![8]⟩
abbrev S8x32 : Shape := ⟨2, ![8, 32]⟩
abbrev S8x1 : Shape := ⟨2, ![8, 1]⟩

abbrev nBuf : Space → Nat
  | .hbm => 86
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x3, .f32⟩
  | .hbm, ⟨7, _⟩ => ⟨S3, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S32x1, .f32⟩
  | .hbm, ⟨13, _⟩ => ⟨S1, .f32⟩
  | .hbm, ⟨14, _⟩ => ⟨S2000000x32, .f32⟩
  | .hbm, ⟨15, _⟩ => ⟨S1x32, .f32⟩
  | .hbm, ⟨16, _⟩ => ⟨S2000000x32, .f32⟩
  | .hbm, ⟨17, _⟩ => ⟨S2000000x32, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S1x32, .f32⟩
  | .hbm, ⟨24, _⟩ => ⟨S2000000x32, .f32⟩
  | .hbm, ⟨25, _⟩ => ⟨S2000000x32, .f32⟩
  | .hbm, ⟨26, _⟩ => ⟨S2000000x32, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S2000000x32, .f32⟩
  | .hbm, ⟨34, _⟩ => ⟨S2000000x32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S1x32, .f32⟩
  | .hbm, ⟨40, _⟩ => ⟨S2000000x32, .f32⟩
  | .hbm, ⟨41, _⟩ => ⟨S2000000x32, .f32⟩
  | .hbm, ⟨42, _⟩ => ⟨S1x32, .f32⟩
  | .hbm, ⟨43, _⟩ => ⟨S2000000x32, .f32⟩
  | .hbm, ⟨44, _⟩ => ⟨S2000000x32, .f32⟩
  | .hbm, ⟨45, _⟩ => ⟨S1x32, .f32⟩
  | .hbm, ⟨46, _⟩ => ⟨S2000000x32, .f32⟩
  | .hbm, ⟨47, _⟩ => ⟨S2000000x32, .f32⟩
  | .hbm, ⟨48, _⟩ => ⟨S_, .f32⟩
  | .hbm, ⟨49, _⟩ => ⟨S2000000x32, .f32⟩
  | .hbm, ⟨50, _⟩ => ⟨S2000000x32, .f32⟩
  | .hbm, ⟨51, _⟩ => ⟨S2000000x3, .f32⟩
  | .hbm, ⟨52, _⟩ => ⟨S1x3, .f32⟩
  | .hbm, ⟨53, _⟩ => ⟨S2000000x3, .f32⟩
  | .hbm, ⟨54, _⟩ => ⟨S2000000x3, .f32⟩
  | .hbm, ⟨55, _⟩ => ⟨S2000000x32, .f32⟩
  | .hbm, ⟨56, _⟩ => ⟨S1x32, .f32⟩
  | .hbm, ⟨57, _⟩ => ⟨S2000000x32, .f32⟩
  | .hbm, ⟨58, _⟩ => ⟨S2000000x32, .f32⟩
  | .hbm, ⟨59, _⟩ => ⟨S_, .f32⟩
  | .hbm, ⟨60, _⟩ => ⟨S2000000x32, .f32⟩
  | .hbm, ⟨61, _⟩ => ⟨S2000000x32, .f32⟩
  | .hbm, ⟨62, _⟩ => ⟨S2000000x1, .f32⟩
  | .hbm, ⟨63, _⟩ => ⟨S1x1, .f32⟩
  | .hbm, ⟨64, _⟩ => ⟨S2000000x1, .f32⟩
  | .hbm, ⟨65, _⟩ => ⟨S2000000x1, .f32⟩
  | .hbm, ⟨66, _⟩ => ⟨S_, .f32⟩
  | .hbm, ⟨67, _⟩ => ⟨S2000000, .f32⟩
  | .hbm, ⟨68, _⟩ => ⟨S_, .f32⟩
  | .hbm, ⟨69, _⟩ => ⟨S8, .f32⟩
  | .hbm, ⟨70, _⟩ => ⟨S2000000x1, .i32⟩
  | .hbm, ⟨71, _⟩ => ⟨S8, .f32⟩
  | .hbm, ⟨72, _⟩ => ⟨S_, .f32⟩
  | .hbm, ⟨73, _⟩ => ⟨S8x32, .f32⟩
  | .hbm, ⟨74, _⟩ => ⟨S2000000x1, .i32⟩
  | .hbm, ⟨75, _⟩ => ⟨S8x32, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8x1, .f32⟩
  | .hbm, ⟨80, _⟩ => ⟨S8x32, .f32⟩
  | .hbm, ⟨81, _⟩ => ⟨S8x32, .f32⟩
  | .hbm, ⟨82, _⟩ => ⟨S8x1, .f32⟩
  | .hbm, ⟨83, _⟩ => ⟨S1x1, .f32⟩
  | .hbm, ⟨84, _⟩ => ⟨S8x1, .f32⟩
  | .hbm, ⟨85, _⟩ => ⟨S8x1, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  reducesTo_S2000000x32_S32_d0 : S2000000x32.ReducesTo [0] S32
  h_S_ : 0 < S_.numel
  bcast_S_S32 : S_.BroadcastsInDim S32 (![] : Fin 0 → Fin S32.rank)
  bcast_S_S2000000x32 : S_.BroadcastsInDim S2000000x32 (![] : Fin 0 → Fin S2000000x32.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000 : S_.BroadcastsInDim S2000000 (![] : Fin 0 → Fin S2000000.rank)
  bcast_S_S8 : S_.BroadcastsInDim S8 (![] : Fin 0 → Fin S8.rank)
  bcast_S2000000_S2000000x1_0 : S2000000.BroadcastsInDim S2000000x1 (![0] : Fin 1 → Fin S2000000x1.rank)
  bcast_S_S8x32 : S_.BroadcastsInDim S8x32 (![] : Fin 0 → Fin S8x32.rank)
  bcast_S8_S8x1_0 : S8.BroadcastsInDim S8x1 (![0] : Fin 1 → Fin S8x1.rank)
  bcast_S8x1_S8x32_0_1 : S8x1.BroadcastsInDim S8x32 (![0, 1] : Fin 2 → Fin S8x32.rank)
  bcast_S1x1_S8x1_0_1 : S1x1.BroadcastsInDim S8x1 (![0, 1] : Fin 2 → Fin S8x1.rank)
  dot_S2000000x32_S32x32_S2000000x32_1_0_0_1_n_n_wf : DotDims.WF S2000000x32 S32x32 S2000000x32 [1] [0] [0] [1] [] []
  dot_S2000000x32_S32x3_S2000000x3_1_0_0_1_n_n_wf : DotDims.WF S2000000x32 S32x3 S2000000x3 [1] [0] [0] [1] [] []
  dot_S2000000x32_S32x1_S2000000x1_1_0_0_1_n_n_wf : DotDims.WF S2000000x32 S32x1 S2000000x1 [1] [0] [0] [1] [] []
  scatter_S8_S2000000x1_S2000000_n_0_0_1_wf : ScatterDims.WF S8 S2000000x1 S2000000 [] [0] [0] 1
  scatter_S8x32_S2000000x1_S2000000x32_1_0_0_1_wf : ScatterDims.WF S8x32 S2000000x1 S2000000x32 [1] [0] [0] 1
  dot_S8x32_S32x1_S8x1_1_0_0_1_n_n_wf : DotDims.WF S8x32 S32x1 S8x1 [1] [0] [0] [1] [] []

variable [Facts₀]

def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf
def dot_S2000000x32_S32x3_S2000000x3_1_0_0_1_n_n : DotDims S2000000x32 S32x3 S2000000x3 where
  lhsContracting := [1]
  rhsContracting := [0]
  lhsNonContracting := [0]
  rhsNonContracting := [1]
  lhsBatch := []
  rhsBatch := []
  wf := dot_S2000000x32_S32x3_S2000000x3_1_0_0_1_n_n_wf
def dot_S2000000x32_S32x1_S2000000x1_1_0_0_1_n_n : DotDims S2000000x32 S32x1 S2000000x1 where
  lhsContracting := [1]
  rhsContracting := [0]
  lhsNonContracting := [0]
  rhsNonContracting := [1]
  lhsBatch := []
  rhsBatch := []
  wf := dot_S2000000x32_S32x1_S2000000x1_1_0_0_1_n_n_wf
def scatter_S8_S2000000x1_S2000000_n_0_0_1 : ScatterDims S8 S2000000x1 S2000000 where
  updateWindowDims := []
  insertedWindowDims := [0]
  scatterDimsToOperandDims := [0]
  indexVectorDim := 1
  wf := scatter_S8_S2000000x1_S2000000_n_0_0_1_wf
def scatter_S8x32_S2000000x1_S2000000x32_1_0_0_1 : ScatterDims S8x32 S2000000x1 S2000000x32 where
  updateWindowDims := [1]
  insertedWindowDims := [0]
  scatterDimsToOperandDims := [0]
  indexVectorDim := 1
  wf := scatter_S8x32_S2000000x1_S2000000x32_1_0_0_1_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

class Facts : Prop extends Facts₀ where

variable [Facts]
-- ==== Proof.Spec.lean ====
/-
  The two programs as index-by-index functions of the argument arrays, over the extended reals.

  A point cloud of 2 000 000 rows with 32 features each goes through three heads:
    * an offset head: a linear layer, a batch normalisation over ALL rows (mean and biased variance per channel),
      a rectifier and a second linear layer into 3 channels;
    * a mask head: a linear layer, a rectifier and a second linear layer into 1 channel;
    * a pooled head: the mean of the rows of each of 8 segments (a row's segment is its 32-bit word read signed;
      a word outside 0..7 belongs to no segment), and a linear layer on that mean.
  The kernel computes the per-channel mean and variance from the sum of the values and the sum of their squares
  (`muK`, `varK`); the reference centres first (`muR`, `varR`). Everything else is stated once.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- A rank-2 array of extended reals. -/
abbrev Arr2 (a b : ℕ) : Type := (⟨2, ![a, b]⟩ : Shape).Idx → EReal
/-- A rank-1 array of extended reals. -/
abbrev Arr1 (a : ℕ) : Type := (⟨1, ![a]⟩ : Shape).Idx → EReal

/-- The number of rows, 2 000 000, as the f32 word both programs divide by. -/
def c2M : EReal := Ideal.ofBits .f32 0x49F42400#32
/-- The batch normalisation's epsilon, the f32 word nearest 1e-4, the same word in both programs. -/
def cEps : EReal := Ideal.ofBits .f32 0x38D1B717#32
/-- The f32 word of zero. -/
def c0 : EReal := Ideal.ofBits .f32 0x00000000#32
/-- The f32 word of one. -/
def c1 : EReal := Ideal.ofBits .f32 0x3F800000#32

/-- A linear layer at row `r`, channel `c`: the row of `X` against column `c` of `W`, plus the bias (for any number of
    rows: the whole array's 2 000 000, or a tile's 16 000). -/
def hpre {n : ℕ} (X : Arr2 n 32) (W : Arr2 32 32) (b : Arr1 32) (r : Fin n) (c : Fin 32) : EReal :=
  (∑ k : Fin 32, X (ix2 r k) * W (ix2 k c)) + b (ix1 c)

/-- The sum over all rows of the linear layer's channel `c`. -/
def sumH (X : Arr2 2000000 32) (W : Arr2 32 32) (b : Arr1 32) (c : Fin 32) : EReal :=
  ∑ r : Fin 2000000, hpre X W b r c

/-- The sum over all rows of the square of the linear layer's channel `c`. -/
def sumH2 (X : Arr2 2000000 32) (W : Arr2 32 32) (b : Arr1 32) (c : Fin 32) : EReal :=
  ∑ r : Fin 2000000, hpre X W b r c * hpre X W b r c

/-- The kernel's mean of channel `c`. -/
def muK (X : Arr2 2000000 32) (W : Arr2 32 32) (b : Arr1 32) (c : Fin 32) : EReal :=
  Ideal.div (sumH X W b c) c2M

/-- The kernel's variance of channel `c`: the mean of the squares less the square of the mean, not below zero. -/
def varK (X : Arr2 2000000 32) (W : Arr2 32 32) (b : Arr1 32) (c : Fin 32) : EReal :=
  max (Ideal.div (sumH2 X W b c) c2M - muK X W b c * muK X W b c) c0

/-- The reference's mean of channel `c` (its sum starts from the zero word). -/
def muR (X : Arr2 2000000 32) (W : Arr2 32 32) (b : Arr1 32) (c : Fin 32) : EReal :=
  Ideal.div (c0 + sumH X W b c) c2M

/-- The reference's variance of channel `c`: the mean of the squared distances from the mean. -/
def varR (X : Arr2 2000000 32) (W : Arr2 32 32) (b : Arr1 32) (c : Fin 32) : EReal :=
  Ideal.div (c0 + ∑ r : Fin 2000000, (hpre X W b r c - muR X W b c) * (hpre X W b r c - muR X W b c)) c2M

/-- The normalised, rectified channel `c` of row `r`, for a given mean and variance per channel. -/
def hn (X : Arr2 2000000 32) (W1 : Arr2 32 32) (b1 gam bet : Arr1 32) (mu var : Fin 32 → EReal)
    (r : Fin 2000000) (c : Fin 32) : EReal :=
  max ((hpre X W1 b1 r c - mu c) * Ideal.rsqrt (var c + cEps) * gam (ix1 c) + bet (ix1 c)) c0

/-- The offset head at row `r`, output channel `j`, in the reference's order of factors. -/
def ptoff (X : Arr2 2000000 32) (W1 : Arr2 32 32) (b1 gam bet : Arr1 32) (W2 : Arr2 32 3) (b2 : Arr1 3)
    (mu var : Fin 32 → EReal) (r : Fin 2000000) (j : Fin 3) : EReal :=
  (∑ c : Fin 32, hn X W1 b1 gam bet mu var r c * W2 (ix2 c j)) + b2 (ix1 j)

/-- The offset head as the kernel's second call computes it, in a channel-major layout: every operand a matrix
    (`mu2`, `var2`, `gam2`, `bet2`, `b1c` columns of 32, `b2c` a column of 3, `W1t` and `W2t` the transposed weights),
    the result at output channel `j`, row `r`. -/
def ptT (X : Arr2 2000000 32) (mu2 var2 gam2 bet2 : Arr2 32 1) (W1t : Arr2 32 32) (b1c : Arr2 32 1)
    (W2t : Arr2 3 32) (b2c : Arr2 3 1) (j : Fin 3) (r : Fin 2000000) : EReal :=
  (∑ c : Fin 32, W2t (ix2 j c) *
      max (((((∑ k : Fin 32, W1t (ix2 c k) * X (ix2 r k)) + b1c (ix2 c 0)) - mu2 (ix2 c 0))
            * Ideal.rsqrt (var2 (ix2 c 0) + cEps)) * gam2 (ix2 c 0) + bet2 (ix2 c 0)) c0)
    + b2c (ix2 j 0)

/-- The mask head at row `r`. -/
def mask {n : ℕ} (X : Arr2 n 32) (MW1 : Arr2 32 32) (mb1 : Arr1 32) (MW2 : Arr2 32 1) (mb2 : Arr1 1)
    (r : Fin n) : EReal :=
  (∑ c : Fin 32, max (hpre X MW1 mb1 r c) c0 * MW2 (ix2 c 0)) + mb2 (ix1 0)

/-- The number of rows of segment `s`, counted in ones. -/
def cnt (B : Fin 2000000 → BitVec 32) (s : Fin 8) : EReal :=
  ∑ r : Fin 2000000, if (B r).toInt = (s.val : ℤ) then c1 else 0

/-- The sum of feature `c` over the rows of segment `s`. -/
def psum (X : Arr2 2000000 32) (B : Fin 2000000 → BitVec 32) (s : Fin 8) (c : Fin 32) : EReal :=
  ∑ r : Fin 2000000, if (B r).toInt = (s.val : ℤ) then X (ix2 r c) else 0

/-- The pooled feature `c` of segment `s`: the segment's sum over its count, the count not below one; both
    accumulations start from the zero word. -/
def pooled (X : Arr2 2000000 32) (B : Fin 2000000 → BitVec 32) (s : Fin 8) (c : Fin 32) : EReal :=
  Ideal.div (c0 + psum X B s c) (max (c0 + cnt B s) c1)

/-- The linear layer on the pooled features of segment `s`. -/
def iou (X : Arr2 2000000 32) (B : Fin 2000000 → BitVec 32) (IW : Arr2 32 1) (ib : Arr1 1) (s : Fin 8) : EReal :=
  (∑ c : Fin 32, pooled X B s c * IW (ix2 c 0)) + ib (ix1 0)

end Cert.Spec

end
-- ==== Proof.Algebra.lean ====
/-
  The laws that join the kernel's arithmetic to the reference's, over the extended reals.
-/
import proofs.«411966_j25761213841798_3_alg».proof.Proof.Spec
import Mathlib.Data.EReal.Basic
import Mathlib.Data.EReal.Operations
import Mathlib.Algebra.BigOperators.Fin

noncomputable section

namespace Cert.Spec

open Idealize.ShloMosaic Idealize.ShloMosaic.ValueIdx
open scoped BigOperators

/-- The zero word is zero. -/
theorem c0_eq_zero : c0 = 0 := by
  simp [c0, Ideal.ofBits, Ideal.ieee]

/-- The word 0x3F800000 is one. -/
theorem c1_eq_one : c1 = 1 := by
  simp [c1, Ideal.ofBits, Ideal.ieee, -EReal.coe_mul]; norm_num

/-- The word 0x49F42400 is two million. -/
theorem c2M_eq : c2M = ((2000000 : ℝ) : EReal) := by
  simp [c2M, Ideal.ofBits, Ideal.ieee, -EReal.coe_mul]; norm_num

/-- The two means are one: the reference's sum only starts from the zero word. -/
theorem muK_eq_muR (X : Arr2 2000000 32) (W : Arr2 32 32) (b : Arr1 32) (c : Fin 32) :
    muK X W b c = muR X W b c := by
  rw [muR, c0_eq_zero, zero_add, muK]

/-- The coercion of the reals into the extended reals carries finite sums to finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squared distances from the mean is the mean of the squares less the square of
    the mean. -/
private theorem real_var {ι : Type*} [Fintype ι] (h : ι → ℝ) (n : ℝ) (hn : n ≠ 0) (hc : (Fintype.card ι : ℝ) = n) :
    (∑ r, (h r - (∑ r, h r) * (1 / n)) * (h r - (∑ r, h r) * (1 / n))) * (1 / n)
      = (∑ r, h r * h r) * (1 / n) - ((∑ r, h r) * (1 / n)) * ((∑ r, h r) * (1 / n)) := by
  generalize hS : (∑ r, h r) = S
  have e : ∀ r, (h r - S * (1 / n)) * (h r - S * (1 / n))
      = h r * h r - (2 * (S * (1 / n))) * h r + (S * (1 / n)) * (S * (1 / n)) := fun r => by ring
  rw [Finset.sum_congr rfl (fun r _ => e r), Finset.sum_add_distrib, Finset.sum_sub_distrib, ← Finset.mul_sum,
    Finset.sum_const, Finset.card_univ, nsmul_eq_mul, hc, hS]
  field_simp
  ring

/-- Over the extended reals, on real entries: the kernel's variance is the reference's. -/
private theorem ereal_var {ι : Type*} [Fintype ι] (h : ι → ℝ) (n : ℝ) (hn : 0 < n) (hc : (Fintype.card ι : ℝ) = n) :
    max (Ideal.div (∑ r, (h r : EReal) * (h r : EReal)) (n : EReal)
          - Ideal.div (∑ r, (h r : EReal)) (n : EReal) * Ideal.div (∑ r, (h r : EReal)) (n : EReal)) 0
      = Ideal.div (0 + ∑ r, ((h r : EReal) - Ideal.div (0 + ∑ r, (h r : EReal)) (n : EReal))
          * ((h r : EReal) - Ideal.div (0 + ∑ r, (h r : EReal)) (n : EReal))) (n : EReal) := by
  have hn' : n ≠ 0 := hn.ne'
  have hS : (∑ r, (h r : EReal)) = ((∑ r, h r : ℝ) : EReal) := (coe_sum _ _).symm
  have hQ : (∑ r, (h r : EReal) * (h r : EReal)) = ((∑ r, h r * h r : ℝ) : EReal) := by
    rw [coe_sum]; exact Finset.sum_congr rfl (fun r _ => (EReal.coe_mul _ _).symm)
  have hD : ∀ m : ℝ, (∑ r, ((h r : EReal) - (m : EReal)) * ((h r : EReal) - (m : EReal)))
      = ((∑ r, (h r - m) * (h r - m) : ℝ) : EReal) := by
    intro m
    rw [coe_sum]
    refine Finset.sum_congr rfl (fun r _ => ?_)
    rw [EReal.coe_mul, EReal.coe_sub]
  rw [zero_add, zero_add, hS, hQ, Ideal.div_coe hn', Ideal.div_coe hn', ← EReal.coe_mul, ← EReal.coe_mul, hD,
    Ideal.div_coe hn', ← EReal.coe_mul, ← EReal.coe_mul, ← EReal.coe_sub, real_var h n hn' hc]
  refine max_eq_left ?_
  rw [← real_var h n hn' hc]
  refine EReal.coe_nonneg.2 (mul_nonneg (Finset.sum_nonneg (fun r _ => mul_self_nonneg _)) ?_)
  exact (one_div_pos.2 hn).le

/-- On finite inputs the two variances are one: the mean of the squared distances from the mean is the mean of the
    squares less the square of the mean, which is not negative. -/
theorem varK_eq_varR (X : Arr2 2000000 32) (W : Arr2 32 32) (b : Arr1 32)
    (hX : ∀ i, ∃ x : ℝ, X i = (x : EReal)) (hW : ∀ i, ∃ x : ℝ, W i = (x : EReal)) (hb : ∀ i, ∃ x : ℝ, b i = (x : EReal))
    (c : Fin 32) : varK X W b c = varR X W b c := by
  choose x hx using hX
  choose w hw using hW
  choose bb hbb using hb
  have hh : ∀ r : Fin 2000000, hpre X W b r c
      = (((∑ k : Fin 32, x (ix2 r k) * w (ix2 k c)) + bb (ix1 c) : ℝ) : EReal) := by
    intro r
    rw [hpre, EReal.coe_add, coe_sum, hbb]
    congr 1
    exact Finset.sum_congr rfl (fun k _ => by rw [hx, hw, EReal.coe_mul])
  unfold varK varR muK muR sumH sumH2
  simp only [hh]
  rw [c2M_eq, c0_eq_zero]
  exact ereal_var (fun r : Fin 2000000 => (∑ k : Fin 32, x (ix2 r k) * w (ix2 k c)) + bb (ix1 c)) 2000000
    (by norm_num) (by simp)

/-- The channel-major offset head is the row-major one: the operands are the same numbers laid out as columns and
    transposed weights, and the products commute. -/
theorem ptT_eq_ptoff (X : Arr2 2000000 32) (W1 : Arr2 32 32) (b1 gam bet : Arr1 32) (W2 : Arr2 32 3) (b2 : Arr1 3)
    (mu var : Fin 32 → EReal) (mu2 var2 gam2 bet2 : Arr2 32 1) (W1t : Arr2 32 32) (b1c : Arr2 32 1)
    (W2t : Arr2 3 32) (b2c : Arr2 3 1)
    (hmu : ∀ c : Fin 32, mu2 (ix2 c 0) = mu c) (hvar : ∀ c : Fin 32, var2 (ix2 c 0) = var c)
    (hgam : ∀ c : Fin 32, gam2 (ix2 c 0) = gam (ix1 c)) (hbet : ∀ c : Fin 32, bet2 (ix2 c 0) = bet (ix1 c))
    (hW1 : ∀ (c k : Fin 32), W1t (ix2 c k) = W1 (ix2 k c)) (hb1 : ∀ c : Fin 32, b1c (ix2 c 0) = b1 (ix1 c))
    (hW2 : ∀ (j : Fin 3) (c : Fin 32), W2t (ix2 j c) = W2 (ix2 c j)) (hb2 : ∀ j : Fin 3, b2c (ix2 j 0) = b2 (ix1 j))
    (j : Fin 3) (r : Fin 2000000) :
    ptT X mu2 var2 gam2 bet2 W1t b1c W2t b2c j r = ptoff X W1 b1 gam bet W2 b2 mu var r j := by
  unfold ptT ptoff hn hpre
  rw [hb2 j]
  congr 1
  refine Finset.sum_congr rfl (fun c _ => ?_)
  have hs : (∑ k : Fin 32, W1t (ix2 c k) * X (ix2 r k)) = ∑ k : Fin 32, X (ix2 r k) * W1 (ix2 k c) :=
    Finset.sum_congr rfl (fun k _ => by rw [hW1 c k, mul_comm])
  rw [hW2 j c, hmu c, hvar c, hgam c, hbet c, hb1 c, hs, mul_comm]

/-- The kernel's pooled feature (its two accumulations start from nothing) is the reference's (from the zero word). -/
theorem pooledK_eq (X : Arr2 2000000 32) (B : Fin 2000000 → BitVec 32) (s : Fin 8) (c : Fin 32) :
    Ideal.div (psum X B s c) (max (cnt B s) c1) = pooled X B s c := by
  rw [pooled, c0_eq_zero, zero_add, zero_add]

end Cert.Spec

end
-- ==== Proof.Finite.lean ====
/-
  The precondition read: every entry of the point features, of the first offset weight and of its bias is a real
  number.
-/
import proofs.«411966_j25761213841798_3_alg».proof.Defs
import proofs.«411966_j25761213841798_3_alg».proof.Proof.Gen.Pre_finite_inputs
import Idealize.ShloMosaic.Lib.ReduceAll
import Idealize.ShloMosaic.Lib.ValueIdx

noncomputable section

namespace Cert.FiniteArgs

open Idealize.ShloMosaic Idealize.ShloMosaic.TcCoe Idealize.SL.Sem Idealize.ShloMosaic.ValueIdx
open Cert.KernelIdeal

/-- The f32 pattern with an all-ones exponent and a zero fraction denotes +∞. -/
private theorem ofBits_inf : Ideal.ofBits .f32 0x7F800000#32 = (⊤ : EReal) := by
  simp [Ideal.ofBits, Ideal.ieee]

/-- An extended real whose absolute value max(x, −x) is strictly below +∞ is a real number: +∞ and −∞ both have
    absolute value +∞. -/
private theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has exactly one index. -/
private instance : Subsingleton Cert.Pre_finite_inputs.S_.Idx := ⟨fun a b => funext fun d => d.elim0⟩

/-- One test `all(|x| < +∞)` of the predicate, read back: if the conjunction over all entries is 1 then each entry
    of `x` is a real number. -/
private theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] bc (constant Cert.Pre_finite_inputs.S_ .f32 0x7F800000#32)))
          (constantI Cert.Pre_finite_inputs.S_ 1 1#1) hr hu j = 1#1)
    (i : s.Idx) : ∃ r : ℝ, (x : s.Idx → EReal) i = (r : EReal) := by
  -- the entry's own comparison bit is 1
  have h1 := Host.reduce_andi_all _ _ hr hu j e i
  -- that bit is the strict comparison of max(x i, −x i) with the broadcast constant
  have h2 : Ideal.cmp .olt (max (x i : EReal) (-(x i : EReal))) (Ideal.ofBits .f32 0x7F800000#32) = 1#1 := h1
  rw [ofBits_inf] at h2
  unfold Ideal.cmp at h2
  refine real_of_abs_lt_top _ ?_
  by_contra hn
  simp [hn] at h2

/-- A pointwise conjunction of two one-bit arrays that is 1 at an index has both conjuncts 1 there. -/
private theorem andi_vec_eq_one {s : Shape} (x y : IVec s 1) (i : s.Idx) (h : andi x y i = 1#1) :
    x i = 1#1 ∧ y i = 1#1 := IntOp.andi_eq_one.1 h

/-- Under the precondition the three arrays the laws need finite are arrays of reals. -/
theorem finite_args [Cert.Pre_finite_inputs.Facts]
    (m : (ℓ : Loc nD τ sig) → Buf (Elt Ideal) ℓ) (h : Cert.Pre_KernelIdeal m) (c : Dev nD) :
    (∀ i, ∃ x : ℝ, (m ((c.tc : Thread nD τ).loc main_arg0) : S2000000x32.Idx → EReal) i = (x : EReal))
    ∧ (∀ i, ∃ x : ℝ, (m ((c.tc : Thread nD τ).loc main_arg2) : S32x32.Idx → EReal) i = (x : EReal))
    ∧ (∀ i, ∃ x : ℝ, (m ((c.tc : Thread nD τ).loc main_arg3) : S32.Idx → EReal) i = (x : EReal)) := by
  -- the predicate's scalar result, at its one index, is 1
  have h0 := congrFun (h c) ValueIdx.ix0
  dsimp only [Cert.Pre_finite_inputs.fn, Cert.Pre_finite_inputs.fn_part1, Cert.Pre_finite_inputs.fn_part2,
    Cert.Pre_finite_inputs.fn_part3] at h0
  -- the thirteen tests are conjoined nested to the left, ((((t0 ∧ t2) ∧ t3) ∧ t4) ∧ …) ∧ t13: drop the ten later
  -- tests from the outside in, then read t0, t2 and t3
  have a12 := andi_vec_eq_one _ _ _ h0
  have a11 := andi_vec_eq_one _ _ _ a12.1
  have a10 := andi_vec_eq_one _ _ _ a11.1
  have a9 := andi_vec_eq_one _ _ _ a10.1
  have a8 := andi_vec_eq_one _ _ _ a9.1
  have a7 := andi_vec_eq_one _ _ _ a8.1
  have a6 := andi_vec_eq_one _ _ _ a7.1
  have a5 := andi_vec_eq_one _ _ _ a6.1
  have a4 := andi_vec_eq_one _ _ _ a5.1
  have a3 := andi_vec_eq_one _ _ _ a4.1
  have a2 := andi_vec_eq_one _ _ _ a3.1
  have a1 := andi_vec_eq_one _ _ _ a2.1
  exact ⟨fun i => real_of_all _ _ _ _ _ a1.1 i, fun i => real_of_all _ _ _ _ _ a1.2 i,
    fun i => real_of_all _ _ _ _ _ a2.2 i⟩

end Cert.FiniteArgs

end
-- ==== Proof.R0Pieces.lean ====
import proofs.«411966_j25761213841798_3_alg».proof.Proof.Gen.KernelIdeal.Frame
import Idealize.ShloMosaic.Lib.Pipeline.Value
import Idealize.ShloMosaic.Lib.Tactic
import Idealize.ShloMosaic.Lib.ValueIdx

noncomputable section

namespace Cert.KernelIdeal.R0P

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable {F : FTy → Type} [FloatOps F]

/-! What each of the two control cases of the first call's body leaves in each output's staging buffer, as the body's
    own arithmetic (the payloads) of the input blocks — and, for the four accumulators, of what the buffer held before:
    the zero block the reset stored (first grid point) or the running contents (every later point). -/

/-- The zero offset of a rank-2 (resp. rank-1) whole-block access, as the constant function. -/
private theorem hz2 : (![0, 0] : Fin 2 → Nat) = fun _ => 0 := funext fun a => by fin_cases a <;> rfl
private theorem hz1 : (![0] : Fin 1 → Nat) = fun _ => 0 := funext fun a => by fin_cases a <;> rfl

/-- First grid point, output 8: one store covering the block; its payload's loads read the whole input blocks. -/
theorem out_A_8 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay1 (k0_pay13 x6) (k0_pay14 x0 x4 x5) x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- First grid point, output 9: the zero block is stored, read back, and the update stored over it; the later store covers. -/
theorem out_A_9 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay11 x0 x2 x3 (k0_pay5 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S32) hz1, View.readCov_unit_zero (S := S32) _ hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- First grid point, output 10: zero block, read back, then the covering update. -/
theorem out_A_10 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay12 x0 x2 x3 (k0_pay6 (F := F)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S32) hz1, View.readCov_unit_zero (S := S32) _ hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- First grid point, output 11: zero block, read back, then the covering update. -/
theorem out_A_11 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay3 x0 (k0_pay9 x0) x1 (k0_pay7 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S8x32) hz2, View.readCov_unit_zero (S := S8x32) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- First grid point, output 12: zero block, read back, then the covering update. -/
theorem out_A_12 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay4 x1 (k0_pay8 (F := F)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S8) hz1, View.readCov_unit_zero (S := S8) _ hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- Later grid points, output 8: one covering store, independent of what the buffer held. -/
theorem out_B_8 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : ¬cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) (xo9 : Vec F S32 .f32) (xo10 : Vec F S32 .f32) (xo11 : Vec F S8x32 .f32) (xo12 : Vec F S8 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12
      = k0_pay1 (k0_pay13 x6) (k0_pay14 x0 x4 x5) x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- Later grid points, output 9: one covering store of the update of the running contents. -/
theorem out_B_9 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : ¬cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) (xo9 : Vec F S32 .f32) (xo10 : Vec F S32 .f32) (xo11 : Vec F S8x32 .f32) (xo12 : Vec F S8 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12
      = k0_pay11 x0 x2 x3 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- Later grid points, output 10: one covering store of the update of the running contents. -/
theorem out_B_10 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : ¬cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) (xo9 : Vec F S32 .f32) (xo10 : Vec F S32 .f32) (xo11 : Vec F S8x32 .f32) (xo12 : Vec F S8 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12
      = k0_pay12 x0 x2 x3 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- Later grid points, output 11: one covering store of the update of the running contents. -/
theorem out_B_11 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : ¬cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) (xo9 : Vec F S32 .f32) (xo10 : Vec F S32 .f32) (xo11 : Vec F S8x32 .f32) (xo12 : Vec F S8 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12
      = k0_pay3 x0 (k0_pay9 x0) x1 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

/-- Later grid points, output 12: one covering store of the update of the running contents. -/
theorem out_B_12 (c : Dev nD) (i : grid0.Coords) (arg1 : Memref sig .tc .vmem S16000x32 .f32) (harg1 : arg1.IsWhole) (arg2 : Memref sig .tc .vmem S1x16000 .i32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S16000x1 .f32) (harg9 : arg9.IsWhole) (arg10 : Memref sig .tc .vmem S32 .f32) (harg10 : arg10.IsWhole) (arg11 : Memref sig .tc .vmem S32 .f32) (harg11 : arg11.IsWhole) (arg12 : Memref sig .tc .vmem S8x32 .f32) (harg12 : arg12.IsWhole) (arg13 : Memref sig .tc .vmem S8 .f32) (harg13 : arg13.IsWhole) (hc0 : ¬cond0_0 i)
    (x0 : Vec F S16000x32 .f32) (x1 : Vec F S1x16000 .i32) (x2 : Vec F S32x32 .f32) (x3 : Vec F S32 .f32) (x4 : Vec F S32x32 .f32) (x5 : Vec F S32 .f32) (x6 : Vec F S32x1 .f32) (x7 : Vec F S1 .f32) (xo9 : Vec F S32 .f32) (xo10 : Vec F S32 .f32) (xo11 : Vec F S8x32 .f32) (xo12 : Vec F S8 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12
      = k0_pay4 x1 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16000x32) hz2, View.ld_unit_zero (S := S1x16000) hz2, View.ld_unit_zero (S := S32x32) hz2, View.ld_unit_zero (S := S32x1) hz2, View.ld_unit_zero (S := S16000x1) hz2, View.ld_unit_zero (S := S8x32) hz2, View.ld_unit_zero (S := S32) hz1, View.ld_unit_zero (S := S1) hz1, View.ld_unit_zero (S := S8) hz1, shapeCast_self]

end Cert.KernelIdeal.R0P

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.R0Pay.lean ====
import proofs.«411966_j25761213841798_3_alg».proof.Proof.Gen.KernelIdeal.Skeleton
import proofs.«411966_j25761213841798_3_alg».proof.Proof.Spec
import proofs.«411966_j25761213841798_3_alg».proof.Proof.LibPlainMatmul
import proofs.«411966_j25761213841798_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.R0Y

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! The arithmetic of the first call's body on one tile of 16 000 rows, read at an index over the extended reals:
    the mask head of the tile's rows; the four accumulators' updates — what the buffer held plus the tile's sum of the
    linear layer, of its squares, of the rows of each segment and of the segment's count. -/

/-! ### Small facts used below -/

/-- The word of a small natural, read signed, is that natural. -/
private theorem toInt_ofNat_small (s : ℕ) (hs : s < 8) : (BitVec.ofNat 32 s).toInt = (s : ℤ) := by
  interval_cases s <;> rfl

/-- A 32-bit word equals the word of a natural below 8 exactly when, read signed, it is that natural. -/
private theorem ofNat_eq_iff (s : ℕ) (hs : s < 8) (w : BitVec 32) : BitVec.ofNat 32 s = w ↔ w.toInt = (s : ℤ) := by
  constructor
  · rintro rfl; exact toInt_ofNat_small s hs
  · intro h; exact BitVec.eq_of_toInt_eq (by rw [toInt_ofNat_small s hs, h])

/-- The linear layer of the tile at row `p`, channel `c`: the row against the weight's column, plus the bias. -/
private theorem pay10_apply (x0 : Vec Ideal S16000x32 .f32) (x2 : Vec Ideal S32x32 .f32) (x3 : Vec Ideal S32 .f32)
    (p : Fin 16000) (c : Fin 32) :
    k0_pay10 (F := Ideal) x0 x2 x3 (ix2 p c) = Cert.Spec.hpre x0 x2 x3 p c := by
  unfold k0_pay10 k0_pay9 Cert.Spec.hpre
  dsimp only
  refine (addf_apply _ _ _).trans ?_
  refine congrArg₂ (· + ·) ?_ ?_
  · exact Cert.Lib.PlainMatmul.matmul_zero_apply _ rfl rfl rfl rfl rfl rfl none _ _ p c
  · exact (broadcastTo_1b_ab_apply _ _ p c).trans (shapeCast_a_1a_apply _ _ 0 c)

/-- The rectified linear layer of the mask head at row `p`, channel `c`. -/
private theorem pay14_apply (x0 : Vec Ideal S16000x32 .f32) (x4 : Vec Ideal S32x32 .f32) (x5 : Vec Ideal S32 .f32)
    (p : Fin 16000) (c : Fin 32) :
    k0_pay14 (F := Ideal) x0 x4 x5 (ix2 p c) = max (Cert.Spec.hpre x0 x4 x5 p c) Cert.Spec.c0 := by
  unfold k0_pay14 k0_pay9 Cert.Spec.hpre Cert.Spec.c0
  dsimp only
  refine (truncf_apply (φ := .f32) (ψ := .bf16) _ bitsLt_bf16_f32 _).trans ?_
  refine (maximumf_apply _ _ _).trans ?_
  refine congrArg₂ max ?_ rfl
  refine (addf_apply _ _ _).trans ?_
  refine congrArg₂ (· + ·) ?_ ?_
  · exact Cert.Lib.PlainMatmul.matmul_zero_apply _ rfl rfl rfl rfl rfl rfl none _ _ p c
  · exact (broadcastTo_1b_ab_apply _ _ p c).trans (shapeCast_a_1a_apply _ _ 0 c)

/-- In a sum over the rows of the tile, the row inserted on axis 0 over channel `c` is the index `(p, c)`. -/
private theorem lift_rows (c : Fin 32) (p : Fin 16000) : reduces_S16000x32_S32.lift (ix1 c) p = ix2 p c :=
  funext fun ax => Fin.ext (by match ax with | ⟨0, _⟩ => rfl | ⟨1, _⟩ => rfl)

/-- In a sum along the rows of a segment, the row inserted on axis 1 over segment `s` is the index `(s, p)`. -/
private theorem lift_cols (s : Fin 8) (p : Fin 16000) : reduces_S8x16000_S8.lift (ix1 s) p = ix2 s p :=
  funext fun ax => Fin.ext (by match ax with | ⟨0, _⟩ => rfl | ⟨1, _⟩ => rfl)

/-- The mask head of row `p` of the tile. -/
theorem pay1_apply (x0 : Vec Ideal S16000x32 .f32) (x4 : Vec Ideal S32x32 .f32) (x5 : Vec Ideal S32 .f32)
    (x6 : Vec Ideal S32x1 .f32) (x7 : Vec Ideal S1 .f32) (p : Fin 16000) (u : Fin 1) :
    k0_pay1 (F := Ideal) (k0_pay13 x6) (k0_pay14 x0 x4 x5) x7 (ix2 p u) = Cert.Spec.mask x0 x4 x5 x6 x7 p := by
  obtain rfl : u = 0 := Subsingleton.elim _ _
  unfold k0_pay1 k0_pay13 Cert.Spec.mask
  dsimp only
  refine (addf_apply _ _ _).trans ?_
  refine congrArg₂ (· + ·) ?_ ?_
  · refine (Cert.Lib.PlainMatmul.matmul_zero_apply _ rfl rfl rfl rfl rfl rfl none _ _ p 0).trans ?_
    refine Finset.sum_congr rfl fun c _ => ?_
    refine congrArg₂ (· * ·) (pay14_apply x0 x4 x5 p c) rfl
  · exact (broadcastTo_1b_ab_apply _ _ p 0).trans (shapeCast_a_1a_apply _ _ 0 0)

/-- The running sum of the linear layer: what was there plus the tile's rows. -/
theorem pay11_apply (x0 : Vec Ideal S16000x32 .f32) (x2 : Vec Ideal S32x32 .f32) (x3 : Vec Ideal S32 .f32)
    (acc : Vec Ideal S32 .f32) (c : Fin 32) :
    k0_pay11 (F := Ideal) x0 x2 x3 acc (ix1 c) = acc (ix1 c) + ∑ p : Fin 16000, Cert.Spec.hpre x0 x2 x3 p c := by
  unfold k0_pay11
  dsimp only
  refine (addf_apply _ _ _).trans ?_
  refine congrArg₂ (· + ·) ?_ ?_
  · exact congrFun (shapeCast_self _ _) _
  · refine (Ideal.multiReduction_add_single (k0_pay10 (F := Ideal) x0 x2 x3) 0x00000000#32 reduces_S16000x32_S32 (.inl rfl) rfl (ix1 c)).trans ?_
    refine Finset.sum_congr rfl fun p _ => ?_
    rw [lift_rows c p]
    exact pay10_apply x0 x2 x3 p c

/-- The running sum of the linear layer's squares. -/
theorem pay12_apply (x0 : Vec Ideal S16000x32 .f32) (x2 : Vec Ideal S32x32 .f32) (x3 : Vec Ideal S32 .f32)
    (acc : Vec Ideal S32 .f32) (c : Fin 32) :
    k0_pay12 (F := Ideal) x0 x2 x3 acc (ix1 c)
      = acc (ix1 c) + ∑ p : Fin 16000, Cert.Spec.hpre x0 x2 x3 p c * Cert.Spec.hpre x0 x2 x3 p c := by
  unfold k0_pay12
  dsimp only
  refine (addf_apply _ _ _).trans ?_
  refine congrArg₂ (· + ·) ?_ ?_
  · exact congrFun (shapeCast_self _ _) _
  · refine (Ideal.multiReduction_add_single (mulf (k0_pay10 (F := Ideal) x0 x2 x3) (k0_pay10 (F := Ideal) x0 x2 x3)) 0x00000000#32
      reduces_S16000x32_S32 (.inl rfl) rfl (ix1 c)).trans ?_
    refine Finset.sum_congr rfl fun p _ => ?_
    rw [lift_rows c p]
    refine (mulf_apply _ _ _).trans ?_
    rw [pay10_apply x0 x2 x3 p c]

/-- The comparison of the segment's number with a row's word, at segment `s` and row `p`. -/
private theorem pay2_apply (x1 : Vec Ideal S1x16000 .i32) (s : Fin 8) (p : Fin 16000) :
    k0_pay2 (F := Ideal) x1 (ix2 s p) = IntOp.cmpi .eq (BitVec.ofNat 32 s.val) (x1 (ix2 0 p)) := by
  unfold k0_pay2
  dsimp only
  show IntOp.cmpi .eq (iota .tc S8x16000 32 [0] iota_S8x16000_d0_w32 (ix2 s p)) (broadcastTo S8x16000 _ _ (ix2 s p)) = _
  refine congrArg₂ (IntOp.cmpi .eq) ?_ ?_
  · exact iota_single_apply .tc S8x16000 32 0 iota_S8x16000_d0_w32 (ix2 s p)
  · refine (broadcastTo_1b_ab_apply _ _ s p).trans ?_
    rw [shapeCast_self, shapeCast_self]

/-- The 0/1 selection at segment `s` and row `p`: one when the row's word, read signed, is `s`, else zero. -/
private theorem onehot_apply (x1 : Vec Ideal S1x16000 .i32) (s : Fin 8) (p : Fin 16000) :
    (sitofp .f32 (extui 32 (k0_pay2 (F := Ideal) x1) natLt_1_32) : FVec Ideal S8x16000 .f32) (ix2 s p)
      = if ((x1 (ix2 0 p) : BitVec 32)).toInt = (s.val : ℤ) then (1 : EReal) else 0 := by
  refine (sitofp_apply _ _).trans ?_
  rw [extui_apply, pay2_apply]
  show ((((IntOp.cmpi .eq (BitVec.ofNat 32 s.val) (x1 (ix2 0 p))).setWidth 32).toInt : ℝ) : EReal) = _
  by_cases h : ((x1 (ix2 0 p) : BitVec 32)).toInt = (s.val : ℤ)
  · have e : IntOp.cmpi .eq (BitVec.ofNat 32 s.val) (x1 (ix2 0 p)) = 1#1 := by
      simp [IntOp.cmpi, (ofNat_eq_iff s.val s.isLt _).mpr h]
    have t : ((1#1 : BitVec 1).setWidth 32).toInt = 1 := by decide
    rw [if_pos h, e, t, Int.cast_one, EReal.coe_one]
  · have hne : ¬ BitVec.ofNat 32 s.val = x1 (ix2 0 p) := fun hab => h ((ofNat_eq_iff s.val s.isLt _).mp hab)
    have hb : (BitVec.ofNat 32 s.val == (x1 (ix2 0 p) : BitVec 32)) = false := beq_eq_false_iff_ne.mpr hne
    have e : IntOp.cmpi .eq (BitVec.ofNat 32 s.val) (x1 (ix2 0 p)) = 0#1 := by
      show BitVec.ofBool (BitVec.ofNat 32 s.val == (x1 (ix2 0 p) : BitVec 32)) = 0#1
      rw [hb]; rfl
    have t : ((0#1 : BitVec 1).setWidth 32).toInt = 0 := by decide
    rw [if_neg h, e, t, Int.cast_zero, EReal.coe_zero]

/-- The running per-segment sums of the rows: the tile's rows whose word, read signed, is the segment. The body adds
    two products, of the 0/1 selection with the rows and with the rows' rounding residual `x - x`, which is zero on
    finite rows. -/
theorem pay3_apply (x0 : Vec Ideal S16000x32 .f32) (x1 : Vec Ideal S1x16000 .i32) (acc : Vec Ideal S8x32 .f32)
    (hX : ∀ i, ∃ x : ℝ, (x0 i : EReal) = (x : EReal)) (s : Fin 8) (c : Fin 32) :
    k0_pay3 (F := Ideal) x0 (k0_pay9 x0) x1 acc (ix2 s c)
      = acc (ix2 s c) + ∑ p : Fin 16000, if ((x1 (ix2 0 p) : BitVec 32)).toInt = (s.val : ℤ) then (x0 (ix2 p c) : EReal) else 0 := by
  unfold k0_pay3 k0_pay9
  dsimp only
  refine (addf_apply _ _ _).trans ?_
  refine congrArg₂ (· + ·) ?_ ?_
  · exact congrFun (shapeCast_self _ _) _
  · refine (addf_apply _ _ _).trans ?_
    refine (congrArg₂ (· + ·) ?_ ?_).trans (add_zero _)
    · refine (Cert.Lib.PlainMatmul.matmul_zero_apply _ rfl rfl rfl rfl rfl rfl none _ _ s c).trans ?_
      refine Finset.sum_congr rfl fun p _ => ?_
      refine (congrArg₂ (· * ·) (onehot_apply x1 s p) rfl).trans ?_
      split_ifs
      · exact one_mul _
      · exact zero_mul _
    · refine (Cert.Lib.PlainMatmul.matmul_zero_apply _ rfl rfl rfl rfl rfl rfl none _ _ s c).trans ?_
      refine Finset.sum_eq_zero fun p _ => ?_
      obtain ⟨r, hr⟩ := hX (ix2 p c)
      have hz : (x0 (ix2 p c) : EReal) - x0 (ix2 p c) = 0 := by
        rw [hr, ← EReal.coe_sub, sub_self, EReal.coe_zero]
      exact (congrArg₂ (· * ·) rfl hz).trans (mul_zero _)

/-- The running per-segment counts. -/
theorem pay4_apply (x1 : Vec Ideal S1x16000 .i32) (acc : Vec Ideal S8 .f32) (s : Fin 8) :
    k0_pay4 (F := Ideal) x1 acc (ix1 s)
      = acc (ix1 s) + ∑ p : Fin 16000, if ((x1 (ix2 0 p) : BitVec 32)).toInt = (s.val : ℤ) then Cert.Spec.c1 else 0 := by
  have hc1 : Cert.Spec.c1 = 1 := by unfold Cert.Spec.c1; exact Ideal.ofBits_one_f32
  unfold k0_pay4
  dsimp only
  refine (addf_apply _ _ _).trans ?_
  refine congrArg₂ (· + ·) ?_ ?_
  · exact congrFun (shapeCast_self _ _) _
  · refine (Ideal.multiReduction_add_single (sitofp .f32 (extui 32 (k0_pay2 (F := Ideal) x1) natLt_1_32)) 0x00000000#32
      reduces_S8x16000_S8 (.inl rfl) rfl (ix1 s)).trans ?_
    refine Finset.sum_congr rfl fun p _ => ?_
    rw [lift_cols s p, onehot_apply x1 s p, hc1]

/-- The four zero blocks the reset stores. -/
theorem pay5_apply (c : Fin 32) : (k0_pay5 (F := Ideal)) (ix1 c) = (0 : EReal) := Ideal.ofBits_zero_f32
theorem pay6_apply (c : Fin 32) : (k0_pay6 (F := Ideal)) (ix1 c) = (0 : EReal) := Ideal.ofBits_zero_f32
theorem pay7_apply (s : Fin 8) (c : Fin 32) : (k0_pay7 (F := Ideal)) (ix2 s c) = (0 : EReal) := Ideal.ofBits_zero_f32
theorem pay8_apply (s : Fin 8) : (k0_pay8 (F := Ideal)) (ix1 s) = (0 : EReal) := Ideal.ofBits_zero_f32

end Cert.KernelIdeal.R0Y

end
-- ==== Proof.R0Acc.lean ====
import proofs.«411966_j25761213841798_3_alg».proof.Proof.Gen.KernelIdeal.Frame
import proofs.«411966_j25761213841798_3_alg».proof.Proof.Spec
import proofs.«411966_j25761213841798_3_alg».proof.Proof.R0Pieces
import proofs.«411966_j25761213841798_3_alg».proof.Proof.R0Pay
import Idealize.ShloMosaic.Lib.Pipeline.Value

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The segment words of the rows, read off the [1, 2000000] array the first call is given. -/
def segs (c : Dev nD) : Fin 2000000 → BitVec 32 := fun r => (V c main_v0 : S1x2000000.Idx → BitVec 32) (ix2 0 r)

def G8 (c : Dev nD) : Vec Ideal S2000000x1 .f32 := fun i =>
  Cert.Spec.mask (V c main_arg0) (V c main_arg8) (V c main_arg9) (V c main_arg10) (V c main_arg11) (i 0)
def G9 (c : Dev nD) : Vec Ideal S32 .f32 := fun i => Cert.Spec.sumH (V c main_arg0) (V c main_arg2) (V c main_arg3) (i 0)
def G10 (c : Dev nD) : Vec Ideal S32 .f32 := fun i => Cert.Spec.sumH2 (V c main_arg0) (V c main_arg2) (V c main_arg3) (i 0)
def G11 (c : Dev nD) : Vec Ideal S8x32 .f32 := fun i => Cert.Spec.psum (V c main_arg0) (segs V c) (i 0) (i 1)
def G12 (c : Dev nD) : Vec Ideal S8 .f32 := fun i => Cert.Spec.cnt (segs V c) (i 0)

/-! ## What the first call leaves in its five result arrays

The grid's 125 points walk the 125 tiles of 16000 rows. Point t's blocks of the row-indexed arrays (the features, the segment
words, the first result) are rows 16000 t … 16000 t + 15999; every other window's block is its whole small array. The body's
arithmetic on a tile is therefore the specification's arithmetic on those rows of the whole arrays (the linear layer and the
mask head of a tile's row are those of the array's row). Each of the four accumulators starts at its first tile's sum and adds
the next tile's sum at every later point, so after the last point it holds the sum over all 2000000 rows, and that point alone
writes it back, its one block being the whole array. The first result is written back at every point: block t of it is the
mask head of tile t's rows, and row r lies in block r / 16000. -/

/-- A grid point is below 125. -/
private theorem pt_lt (t : Fin cfg0.N) : t.val < 125 := by
  have h : cfg0.N = 125 := N_0
  have := t.isLt
  omega

/-- Row p of tile t, as a row of the whole array. -/
private def row (t : Fin cfg0.N) (p : Fin 16000) : Fin 2000000 :=
  ⟨16000 * t.val + p.val, by have := pt_lt t; have := p.isLt; omega⟩

/-! ### The input blocks at a point, at their literal shapes, and which entries of the arrays they hold -/

private abbrev xb0 (c : Dev nD) (t : Fin cfg0.N) : Vec Ideal S16000x32 .f32 := iblk0 (F := Ideal) V c 0 t
private abbrev xb1 (c : Dev nD) (t : Fin cfg0.N) : Vec Ideal S1x16000 .i32 := iblk0 (F := Ideal) V c 1 t
private abbrev xb2 (c : Dev nD) (t : Fin cfg0.N) : Vec Ideal S32x32 .f32 := iblk0 (F := Ideal) V c 2 t
private abbrev xb3 (c : Dev nD) (t : Fin cfg0.N) : Vec Ideal S32 .f32 := iblk0 (F := Ideal) V c 3 t
private abbrev xb4 (c : Dev nD) (t : Fin cfg0.N) : Vec Ideal S32x32 .f32 := iblk0 (F := Ideal) V c 4 t
private abbrev xb5 (c : Dev nD) (t : Fin cfg0.N) : Vec Ideal S32 .f32 := iblk0 (F := Ideal) V c 5 t
private abbrev xb6 (c : Dev nD) (t : Fin cfg0.N) : Vec Ideal S32x1 .f32 := iblk0 (F := Ideal) V c 6 t
private abbrev xb7 (c : Dev nD) (t : Fin cfg0.N) : Vec Ideal S1 .f32 := iblk0 (F := Ideal) V c 7 t

/-- The block index of the features at point t is (t, 0). -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row p of point t's block of the features is row 16000 t + p of the array. -/
private theorem xb0_apply (c : Dev nD) (t : Fin cfg0.N) (p : Fin 16000) (k : Fin 32) :
    xb0 V c t (ix2 p k) = (V c main_arg0 : S2000000x32.Idx → EReal) (ix2 (row t p) k) := by
  show iblk0 (F := Ideal) V c 0 t (ix2 p k) = _
  unfold iblk0
  rw [View.read_apply]
  show (V c main_arg0 : S2000000x32.Idx → EReal) _ = (V c main_arg0 : S2000000x32.Idx → EReal) _
  congr 1
  funext a
  apply Fin.ext
  obtain ⟨e0, e1⟩ := idx0 t
  match a with
  | ⟨0, _⟩ => show win0_0.index t (0 : Fin 2) * 16000 + 1 * p.val = 16000 * t.val + p.val; rw [e0]; omega
  | ⟨1, _⟩ => show win0_0.index t (1 : Fin 2) * 32 + 1 * k.val = k.val; rw [e1]; omega

/-- The block index of the segment words at point t is (0, t). -/
private theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry p of point t's block of the segment words is entry 16000 t + p of the array. -/
private theorem xb1_apply (c : Dev nD) (t : Fin cfg0.N) (p : Fin 16000) :
    xb1 V c t (ix2 0 p) = (V c main_v0 : S1x2000000.Idx → BitVec 32) (ix2 0 (row t p)) := by
  show iblk0 (F := Ideal) V c 1 t (ix2 0 p) = _
  unfold iblk0
  rw [View.read_apply]
  show (V c main_v0 : S1x2000000.Idx → BitVec 32) _ = (V c main_v0 : S1x2000000.Idx → BitVec 32) _
  congr 1
  funext a
  apply Fin.ext
  obtain ⟨e0, e1⟩ := idx1 t
  match a with
  | ⟨0, _⟩ => show win0_1.index t (0 : Fin 2) * 1 + 1 * 0 = 0; rw [e0]
  | ⟨1, _⟩ => show win0_1.index t (1 : Fin 2) * 16000 + 1 * p.val = 16000 * t.val + p.val; rw [e1]; omega

/-- The offset head's first weights, its bias, the mask head's two weights and two biases: one block, at index zero, the
    whole array. -/
private theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

private theorem xb2_eq (c : Dev nD) (t : Fin cfg0.N) : xb2 V c t = (V c main_arg2 : S32x32.Idx → EReal) := by
  funext j
  show iblk0 (F := Ideal) V c 2 t j = _
  unfold iblk0
  rw [View.read_apply]
  show (V c main_arg2 : S32x32.Idx → EReal) _ = (V c main_arg2 : S32x32.Idx → EReal) j
  congr 1
  funext a
  apply Fin.ext
  obtain ⟨e0, e1⟩ := idx2 t
  match a with
  | ⟨0, _⟩ => show win0_2.index t (0 : Fin 2) * 32 + 1 * (j 0).val = (j 0).val; rw [e0]; omega
  | ⟨1, _⟩ => show win0_2.index t (1 : Fin 2) * 32 + 1 * (j 1).val = (j 1).val; rw [e1]; omega

private theorem idx3 : ∀ t : Fin cfg0.N, win0_3.index t (0 : Fin 1) = 0 :=
  (by decide +kernel : ∀ t : Fin grid0.N, win0_3.index t (0 : Fin 1) = 0)

private theorem xb3_eq (c : Dev nD) (t : Fin cfg0.N) : xb3 V c t = (V c main_arg3 : S32.Idx → EReal) := by
  funext j
  show iblk0 (F := Ideal) V c 3 t j = _
  unfold iblk0
  rw [View.read_apply]
  show (V c main_arg3 : S32.Idx → EReal) _ = (V c main_arg3 : S32.Idx → EReal) j
  congr 1
  funext a
  apply Fin.ext
  have e0 := idx3 t
  match a with
  | ⟨0, _⟩ => show win0_3.index t (0 : Fin 1) * 32 + 1 * (j 0).val = (j 0).val; rw [e0]; omega

/-- The linear layer of a tile's row is the linear layer of the array's row the tile holds there. -/
private theorem hpre_tile {X : Cert.Spec.Arr2 2000000 32} {x0 : Cert.Spec.Arr2 16000 32} (W : Cert.Spec.Arr2 32 32)
    (b : Cert.Spec.Arr1 32) (f : Fin 16000 → Fin 2000000) (hx : ∀ p k, x0 (ix2 p k) = X (ix2 (f p) k))
    (p : Fin 16000) (ch : Fin 32) : Cert.Spec.hpre x0 W b p ch = Cert.Spec.hpre X W b (f p) ch := by
  unfold Cert.Spec.hpre
  simp only [hx]

/-- An accumulator over the 125 tiles of 16000 rows that starts at the first tile's sum and adds the next tile's sum at
    every later point holds, after the last point, the sum over all 2000000 rows. -/
private theorem acc_tiles {M : Type*} [AddCommMonoid M] {N : ℕ} (hN : N = 125) (acc : (n : ℕ) → n < N → M)
    (f : Fin 2000000 → M) (tile : (n : ℕ) → n < N → M)
    (htile : ∀ n (h : n < N), tile n h = ∑ p : Fin 16000, f ⟨16000 * n + p.val, by have := p.isLt; omega⟩)
    (h0 : ∀ h : 0 < N, acc 0 h = tile 0 h)
    (hs : ∀ n (h : n + 1 < N), acc (n + 1) h = acc n (Nat.lt_of_succ_lt h) + tile (n + 1) h)
    (m : ℕ) (h : m < N) (hm : m = 124) : acc m h = ∑ r : Fin 2000000, f r := by
  subst hN
  subst hm
  -- the rows as a function of every natural, zero past the array
  obtain ⟨g, hg⟩ : ∃ g : ℕ → M, ∀ i : Fin 2000000, g i.val = f i :=
    ⟨fun k => if h : k < 2000000 then f ⟨k, h⟩ else 0, fun i => dif_pos i.2⟩
  have ht : ∀ n (h : n < 125), tile n h = ∑ r ∈ Finset.range 16000, g (16000 * n + r) := fun n h => by
    rw [htile n h, Finset.sum_range]
    exact Finset.sum_congr rfl fun p _ => (hg _).symm
  have key : ∀ n (h : n < 125), acc n h = ∑ r ∈ Finset.range (16000 * (n + 1)), g r := by
    intro n
    induction n with
    | zero => intro h; rw [h0 h, ht 0 h]; simp
    | succ n ih =>
      intro h
      rw [hs n h, ih (Nat.lt_of_succ_lt h), ht (n + 1) h, show 16000 * (n + 1 + 1) = 16000 * (n + 1) + 16000 by ring,
        Finset.sum_range_add]
  rw [key 124 h, Finset.sum_range]
  exact Finset.sum_congr rfl fun i _ => hg i

/-! ### The sum of the linear layer -/

/-- Every point but the first leaves, in the buffer of the running sum of the linear layer, what the point before left plus
    its tile's sum. -/
private theorem step9_B (c : Dev nD) (t : Fin cfg0.N) (h0 : ¬t.val % 125 = 0) :
    (outsAt0 V c t.val t.isLt).2.1
      = k0_pay11 (F := Ideal) (xb0 V c t) (xb2 V c t) (xb3 V c t) (outsAt0 V c (t.val - 1) (Nat.lt_of_le_of_lt (Nat.sub_le _ _) t.isLt)).2.1 := by
  rw [outsAt0_B V c t h0]
  dsimp only
  exact R0P.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (xb0 V c t) (xb1 V c t) (xb2 V c t) (xb3 V c t) (xb4 V c t) (xb5 V c t) (xb6 V c t) (xb7 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The first point leaves the zero block plus its tile's sum. -/
private theorem step9_A (c : Dev nD) (t : Fin cfg0.N) (h0 : t.val % 125 = 0) :
    (outsAt0 V c t.val t.isLt).2.1 = k0_pay11 (F := Ideal) (xb0 V c t) (xb2 V c t) (xb3 V c t) (k0_pay5 (F := Ideal)) := by
  rw [outsAt0_A V c t h0]
  dsimp only
  exact R0P.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (xb0 V c t) (xb1 V c t) (xb2 V c t) (xb3 V c t) (xb4 V c t) (xb5 V c t) (xb6 V c t) (xb7 V c t)

/-- The blocks of window 0 hold the rows of the array. -/
private theorem hpre_blk (c : Dev nD) (t : Fin cfg0.N) (p : Fin 16000) (ch : Fin 32) :
    Cert.Spec.hpre (xb0 V c t) (xb2 V c t) (xb3 V c t) p ch
      = Cert.Spec.hpre (V c main_arg0) (V c main_arg2) (V c main_arg3) (row t p) ch := by
  rw [xb2_eq, xb3_eq]
  exact hpre_tile (X := V c main_arg0) (x0 := xb0 V c t) (V c main_arg2) (V c main_arg3) (row t) (xb0_apply V c t) p ch

/-- After the last point the buffer of the running sum of the linear layer holds the sum over all rows. -/
private theorem acc9 (c : Dev nD) (t : Fin cfg0.N) (ht : t.val = 124) (ch : Fin 32) :
    (outsAt0 V c t.val t.isLt).2.1 (ix1 ch) = Cert.Spec.sumH (V c main_arg0) (V c main_arg2) (V c main_arg3) ch := by
  unfold Cert.Spec.sumH
  refine acc_tiles (N := cfg0.N) N_0 (fun n h => (outsAt0 V c n h).2.1 (ix1 ch))
    (fun r => Cert.Spec.hpre (V c main_arg0) (V c main_arg2) (V c main_arg3) r ch)
    (fun n h => ∑ p : Fin 16000, Cert.Spec.hpre (xb0 V c ⟨n, h⟩) (xb2 V c ⟨n, h⟩) (xb3 V c ⟨n, h⟩) p ch) ?_ ?_ ?_ t.val t.isLt ht
  · intro n h
    exact Finset.sum_congr rfl fun p _ => hpre_blk V c ⟨n, h⟩ p ch
  · intro h
    show (outsAt0 V c (⟨0, h⟩ : Fin cfg0.N).val (⟨0, h⟩ : Fin cfg0.N).isLt).2.1 (ix1 ch) = _
    rw [step9_A V c ⟨0, h⟩ rfl, R0Y.pay11_apply, R0Y.pay5_apply, zero_add]
  · intro n h
    have hB : ¬(⟨n + 1, h⟩ : Fin cfg0.N).val % 125 = 0 := by
      have hN : cfg0.N = 125 := N_0
      show ¬(n + 1) % 125 = 0
      omega
    show (outsAt0 V c (⟨n + 1, h⟩ : Fin cfg0.N).val (⟨n + 1, h⟩ : Fin cfg0.N).isLt).2.1 (ix1 ch) = _
    rw [step9_B V c ⟨n + 1, h⟩ hB, R0Y.pay11_apply]
    rfl

/-- The result's one block is at index zero. -/
private theorem idx9 : ∀ t : Fin cfg0.N, win0_9.index t (0 : Fin 1) = 0 :=
  (by decide +kernel : ∀ t : Fin grid0.N, win0_9.index t (0 : Fin 1) = 0)

/-- The one block of the [32] result array is the array. -/
private theorem blk9_read (t : Fin cfg0.N) (G : S32.Idx → EReal) :
    (((cfg0.win 9).blk t).view.read (Elt Ideal) G : S32.Idx → EReal) = G := by
  funext j
  rw [View.read_apply]
  show G _ = G j
  congr 1
  funext a
  apply Fin.ext
  have e0 := idx9 t
  match a with
  | ⟨0, _⟩ => show win0_9.index t (0 : Fin 1) * 32 + 1 * (j 0).val = (j 0).val; rw [e0]; omega

/-- The one point that writes the sum back is the last, and what it writes is the sum over all rows. -/
private theorem flushed9 (c : Dev nD) (t : Fin cfg0.N) (hf : (cfg0.win 9).flush t = true) :
    (dat0 (F := Ideal) V c).flushed 9 t = ((cfg0.win 9).blk t).view.read (Elt Ideal) (G9 V c) := by
  have hN : cfg0.N = 125 := N_0
  have h124 : t.val = 124 := by have := (flush0_9 t).mp hf; have := t.isLt; omega
  refine Eq.trans ?_ (blk9_read t (G9 V c)).symm
  show (cfg0.win 9).cut (grid0.coords t) ((dat0 V c).after 9 t) = _
  rw [after0_9]
  show (fun j : S32.Idx => (outsAt0 V c t.val t.isLt).2.1 j) = G9 V c
  funext j
  obtain ⟨ch, rfl⟩ : ∃ ch : Fin 32, j = ix1 ch := ⟨j 0, eq_ix1 j⟩
  exact acc9 V c t h124 ch

/-- The last point. -/
private theorem t124 : 124 < cfg0.N := by rw [show cfg0.N = 125 from N_0]; decide

/-- The last point's block covers the [32] array: it ends holding the sum of the linear layer over all rows. -/
theorem final0_9 (c : Dev nD) : (dat0 (F := Ideal) V c).arrAt 9 cfg0.N = G9 V c :=
  (dat0 (F := Ideal) V c).arrAt_eq_of_cover 9 (G9 V c) (flushed9 V c) fun i =>
    ⟨⟨124, t124⟩, (flush0_9 ⟨124, t124⟩).mpr rfl, by
      show i ∈ ((View.whole main_v1_1).slice (win0_9.rect ⟨124, t124⟩)).set
      rw [View.set_slice_whole, Rect.mem_set_unit]
      intro a
      have h0 : (i 0 : Nat) < 32 := (i 0).isLt
      match a with
      | ⟨0, _⟩ =>
        show win0_9.index ⟨124, t124⟩ 0 * win0_9.size 0 ≤ (i 0 : Nat)
          ∧ (i 0 : Nat) < win0_9.index ⟨124, t124⟩ 0 * win0_9.size 0 + win0_9.xsize (grid0.coords ⟨124, t124⟩) 0
        rw [show win0_9.index ⟨124, t124⟩ 0 * win0_9.size 0 = 0 from by decide +kernel,
          show win0_9.xsize (grid0.coords ⟨124, t124⟩) 0 = 32 from by decide +kernel]
        omega⟩

/-! ### The sum of the squares of the linear layer -/

private theorem step10_B (c : Dev nD) (t : Fin cfg0.N) (h0 : ¬t.val % 125 = 0) :
    (outsAt0 V c t.val t.isLt).2.2.1
      = k0_pay12 (F := Ideal) (xb0 V c t) (xb2 V c t) (xb3 V c t) (outsAt0 V c (t.val - 1) (Nat.lt_of_le_of_lt (Nat.sub_le _ _) t.isLt)).2.2.1 := by
  rw [outsAt0_B V c t h0]
  dsimp only
  exact R0P.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (xb0 V c t) (xb1 V c t) (xb2 V c t) (xb3 V c t) (xb4 V c t) (xb5 V c t) (xb6 V c t) (xb7 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2

private theorem step10_A (c : Dev nD) (t : Fin cfg0.N) (h0 : t.val % 125 = 0) :
    (outsAt0 V c t.val t.isLt).2.2.1 = k0_pay12 (F := Ideal) (xb0 V c t) (xb2 V c t) (xb3 V c t) (k0_pay6 (F := Ideal)) := by
  rw [outsAt0_A V c t h0]
  dsimp only
  exact R0P.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (xb0 V c t) (xb1 V c t) (xb2 V c t) (xb3 V c t) (xb4 V c t) (xb5 V c t) (xb6 V c t) (xb7 V c t)

private theorem acc10 (c : Dev nD) (t : Fin cfg0.N) (ht : t.val = 124) (ch : Fin 32) :
    (outsAt0 V c t.val t.isLt).2.2.1 (ix1 ch) = Cert.Spec.sumH2 (V c main_arg0) (V c main_arg2) (V c main_arg3) ch := by
  unfold Cert.Spec.sumH2
  refine acc_tiles (N := cfg0.N) N_0 (fun n h => (outsAt0 V c n h).2.2.1 (ix1 ch))
    (fun r => Cert.Spec.hpre (V c main_arg0) (V c main_arg2) (V c main_arg3) r ch
      * Cert.Spec.hpre (V c main_arg0) (V c main_arg2) (V c main_arg3) r ch)
    (fun n h => ∑ p : Fin 16000, Cert.Spec.hpre (xb0 V c ⟨n, h⟩) (xb2 V c ⟨n, h⟩) (xb3 V c ⟨n, h⟩) p ch
      * Cert.Spec.hpre (xb0 V c ⟨n, h⟩) (xb2 V c ⟨n, h⟩) (xb3 V c ⟨n, h⟩) p ch) ?_ ?_ ?_ t.val t.isLt ht
  · intro n h
    exact Finset.sum_congr rfl fun p _ => by rw [hpre_blk V c ⟨n, h⟩ p ch]; rfl
  · intro h
    show (outsAt0 V c (⟨0, h⟩ : Fin cfg0.N).val (⟨0, h⟩ : Fin cfg0.N).isLt).2.2.1 (ix1 ch) = _
    rw [step10_A V c ⟨0, h⟩ rfl, R0Y.pay12_apply, R0Y.pay6_apply, zero_add]
  · intro n h
    have hB : ¬(⟨n + 1, h⟩ : Fin cfg0.N).val % 125 = 0 := by
      have hN : cfg0.N = 125 := N_0
      show ¬(n + 1) % 125 = 0
      omega
    show (outsAt0 V c (⟨n + 1, h⟩ : Fin cfg0.N).val (⟨n + 1, h⟩ : Fin cfg0.N).isLt).2.2.1 (ix1 ch) = _
    rw [step10_B V c ⟨n + 1, h⟩ hB, R0Y.pay12_apply]
    rfl

private theorem idx10 : ∀ t : Fin cfg0.N, win0_10.index t (0 : Fin 1) = 0 :=
  (by decide +kernel : ∀ t : Fin grid0.N, win0_10.index t (0 : Fin 1) = 0)

private theorem blk10_read (t : Fin cfg0.N) (G : S32.Idx → EReal) :
    (((cfg0.win 10).blk t).view.read (Elt Ideal) G : S32.Idx → EReal) = G := by
  funext j
  rw [View.read_apply]
  show G _ = G j
  congr 1
  funext a
  apply Fin.ext
  have e0 := idx10 t
  match a with
  | ⟨0, _⟩ => show win0_10.index t (0 : Fin 1) * 32 + 1 * (j 0).val = (j 0).val; rw [e0]; omega

private theorem flushed10 (c : Dev nD) (t : Fin cfg0.N) (hf : (cfg0.win 10).flush t = true) :
    (dat0 (F := Ideal) V c).flushed 10 t = ((cfg0.win 10).blk t).view.read (Elt Ideal) (G10 V c) := by
  have hN : cfg0.N = 125 := N_0
  have h124 : t.val = 124 := by have := (flush0_10 t).mp hf; have := t.isLt; omega
  refine Eq.trans ?_ (blk10_read t (G10 V c)).symm
  show (cfg0.win 10).cut (grid0.coords t) ((dat0 V c).after 10 t) = _
  rw [after0_10]
  show (fun j : S32.Idx => (outsAt0 V c t.val t.isLt).2.2.1 j) = G10 V c
  funext j
  obtain ⟨ch, rfl⟩ : ∃ ch : Fin 32, j = ix1 ch := ⟨j 0, eq_ix1 j⟩
  exact acc10 V c t h124 ch

/-- The [32] array of the squares' sums, likewise. -/
theorem final0_10 (c : Dev nD) : (dat0 (F := Ideal) V c).arrAt 10 cfg0.N = G10 V c :=
  (dat0 (F := Ideal) V c).arrAt_eq_of_cover 10 (G10 V c) (flushed10 V c) fun i =>
    ⟨⟨124, t124⟩, (flush0_10 ⟨124, t124⟩).mpr rfl, by
      show i ∈ ((View.whole main_v1_2).slice (win0_10.rect ⟨124, t124⟩)).set
      rw [View.set_slice_whole, Rect.mem_set_unit]
      intro a
      have h0 : (i 0 : Nat) < 32 := (i 0).isLt
      match a with
      | ⟨0, _⟩ =>
        show win0_10.index ⟨124, t124⟩ 0 * win0_10.size 0 ≤ (i 0 : Nat)
          ∧ (i 0 : Nat) < win0_10.index ⟨124, t124⟩ 0 * win0_10.size 0 + win0_10.xsize (grid0.coords ⟨124, t124⟩) 0
        rw [show win0_10.index ⟨124, t124⟩ 0 * win0_10.size 0 = 0 from by decide +kernel,
          show win0_10.xsize (grid0.coords ⟨124, t124⟩) 0 = 32 from by decide +kernel]
        omega⟩

/-! ### The count of each segment -/

private theorem step12_B (c : Dev nD) (t : Fin cfg0.N) (h0 : ¬t.val % 125 = 0) :
    (outsAt0 V c t.val t.isLt).2.2.2.2 = k0_pay4 (F := Ideal) (xb1 V c t) (outsAt0 V c (t.val - 1) (Nat.lt_of_le_of_lt (Nat.sub_le _ _) t.isLt)).2.2.2.2 := by
  rw [outsAt0_B V c t h0]
  dsimp only
  exact R0P.out_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (xb0 V c t) (xb1 V c t) (xb2 V c t) (xb3 V c t) (xb4 V c t) (xb5 V c t) (xb6 V c t) (xb7 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2

private theorem step12_A (c : Dev nD) (t : Fin cfg0.N) (h0 : t.val % 125 = 0) :
    (outsAt0 V c t.val t.isLt).2.2.2.2 = k0_pay4 (F := Ideal) (xb1 V c t) (k0_pay8 (F := Ideal)) := by
  rw [outsAt0_A V c t h0]
  dsimp only
  exact R0P.out_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (xb0 V c t) (xb1 V c t) (xb2 V c t) (xb3 V c t) (xb4 V c t) (xb5 V c t) (xb6 V c t) (xb7 V c t)

private theorem acc12 (c : Dev nD) (t : Fin cfg0.N) (ht : t.val = 124) (s : Fin 8) :
    (outsAt0 V c t.val t.isLt).2.2.2.2 (ix1 s) = Cert.Spec.cnt (segs V c) s := by
  unfold Cert.Spec.cnt
  refine acc_tiles (N := cfg0.N) N_0 (fun n h => (outsAt0 V c n h).2.2.2.2 (ix1 s))
    (fun r => if (segs V c r).toInt = (s.val : ℤ) then Cert.Spec.c1 else 0)
    (fun n h => ∑ p : Fin 16000, if ((xb1 V c ⟨n, h⟩ (ix2 0 p) : BitVec 32)).toInt = (s.val : ℤ) then Cert.Spec.c1 else 0)
    ?_ ?_ ?_ t.val t.isLt ht
  · intro n h
    exact Finset.sum_congr rfl fun p _ => by rw [xb1_apply V c ⟨n, h⟩ p]; rfl
  · intro h
    show (outsAt0 V c (⟨0, h⟩ : Fin cfg0.N).val (⟨0, h⟩ : Fin cfg0.N).isLt).2.2.2.2 (ix1 s) = _
    rw [step12_A V c ⟨0, h⟩ rfl, R0Y.pay4_apply, R0Y.pay8_apply, zero_add]
  · intro n h
    have hB : ¬(⟨n + 1, h⟩ : Fin cfg0.N).val % 125 = 0 := by
      have hN : cfg0.N = 125 := N_0
      show ¬(n + 1) % 125 = 0
      omega
    show (outsAt0 V c (⟨n + 1, h⟩ : Fin cfg0.N).val (⟨n + 1, h⟩ : Fin cfg0.N).isLt).2.2.2.2 (ix1 s) = _
    rw [step12_B V c ⟨n + 1, h⟩ hB, R0Y.pay4_apply]
    rfl

private theorem idx12 : ∀ t : Fin cfg0.N, win0_12.index t (0 : Fin 1) = 0 :=
  (by decide +kernel : ∀ t : Fin grid0.N, win0_12.index t (0 : Fin 1) = 0)

private theorem blk12_read (t : Fin cfg0.N) (G : S8.Idx → EReal) :
    (((cfg0.win 12).blk t).view.read (Elt Ideal) G : S8.Idx → EReal) = G := by
  funext j
  rw [View.read_apply]
  show G _ = G j
  congr 1
  funext a
  apply Fin.ext
  have e0 := idx12 t
  match a with
  | ⟨0, _⟩ => show win0_12.index t (0 : Fin 1) * 8 + 1 * (j 0).val = (j 0).val; rw [e0]; omega

private theorem flushed12 (c : Dev nD) (t : Fin cfg0.N) (hf : (cfg0.win 12).flush t = true) :
    (dat0 (F := Ideal) V c).flushed 12 t = ((cfg0.win 12).blk t).view.read (Elt Ideal) (G12 V c) := by
  have hN : cfg0.N = 125 := N_0
  have h124 : t.val = 124 := by have := (flush0_12 t).mp hf; have := t.isLt; omega
  refine Eq.trans ?_ (blk12_read t (G12 V c)).symm
  show (cfg0.win 12).cut (grid0.coords t) ((dat0 V c).after 12 t) = _
  rw [after0_12]
  show (fun j : S8.Idx => (outsAt0 V c t.val t.isLt).2.2.2.2 j) = G12 V c
  funext j
  obtain ⟨s, rfl⟩ : ∃ s : Fin 8, j = ix1 s := ⟨j 0, eq_ix1 j⟩
  exact acc12 V c t h124 s

/-- The [8] array of the segments' counts, likewise. -/
theorem final0_12 (c : Dev nD) : (dat0 (F := Ideal) V c).arrAt 12 cfg0.N = G12 V c :=
  (dat0 (F := Ideal) V c).arrAt_eq_of_cover 12 (G12 V c) (flushed12 V c) fun i =>
    ⟨⟨124, t124⟩, (flush0_12 ⟨124, t124⟩).mpr rfl, by
      show i ∈ ((View.whole main_v1_4).slice (win0_12.rect ⟨124, t124⟩)).set
      rw [View.set_slice_whole, Rect.mem_set_unit]
      intro a
      have h0 : (i 0 : Nat) < 8 := (i 0).isLt
      match a with
      | ⟨0, _⟩ =>
        show win0_12.index ⟨124, t124⟩ 0 * win0_12.size 0 ≤ (i 0 : Nat)
          ∧ (i 0 : Nat) < win0_12.index ⟨124, t124⟩ 0 * win0_12.size 0 + win0_12.xsize (grid0.coords ⟨124, t124⟩) 0
        rw [show win0_12.index ⟨124, t124⟩ 0 * win0_12.size 0 = 0 from by decide +kernel,
          show win0_12.xsize (grid0.coords ⟨124, t124⟩) 0 = 8 from by decide +kernel]
        omega⟩

/-! ### The sum of the rows of each segment -/

private theorem step11_B (c : Dev nD) (t : Fin cfg0.N) (h0 : ¬t.val % 125 = 0) :
    (outsAt0 V c t.val t.isLt).2.2.2.1
      = k0_pay3 (F := Ideal) (xb0 V c t) (k0_pay9 (xb0 V c t)) (xb1 V c t) (outsAt0 V c (t.val - 1) (Nat.lt_of_le_of_lt (Nat.sub_le _ _) t.isLt)).2.2.2.1 := by
  rw [outsAt0_B V c t h0]
  dsimp only
  exact R0P.out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (xb0 V c t) (xb1 V c t) (xb2 V c t) (xb3 V c t) (xb4 V c t) (xb5 V c t) (xb6 V c t) (xb7 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2

private theorem step11_A (c : Dev nD) (t : Fin cfg0.N) (h0 : t.val % 125 = 0) :
    (outsAt0 V c t.val t.isLt).2.2.2.1
      = k0_pay3 (F := Ideal) (xb0 V c t) (k0_pay9 (xb0 V c t)) (xb1 V c t) (k0_pay7 (F := Ideal)) := by
  rw [outsAt0_A V c t h0]
  dsimp only
  exact R0P.out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (xb0 V c t) (xb1 V c t) (xb2 V c t) (xb3 V c t) (xb4 V c t) (xb5 V c t) (xb6 V c t) (xb7 V c t)

/-- A tile of a finite array is finite. -/
private theorem xb0_fin (c : Dev nD) (t : Fin cfg0.N)
    (hX : ∀ i, ∃ x : ℝ, (V c main_arg0 : S2000000x32.Idx → EReal) i = (x : EReal)) :
    ∀ i, ∃ x : ℝ, (xb0 V c t i : EReal) = (x : EReal) := fun i => by
  obtain ⟨p, k, rfl⟩ : ∃ (p : Fin 16000) (k : Fin 32), i = ix2 p k := ⟨i 0, i 1, eq_ix2 i⟩
  rw [xb0_apply]
  exact hX _

private theorem acc11 (c : Dev nD) (hX : ∀ i, ∃ x : ℝ, (V c main_arg0 : S2000000x32.Idx → EReal) i = (x : EReal))
    (t : Fin cfg0.N) (ht : t.val = 124) (s : Fin 8) (ch : Fin 32) :
    (outsAt0 V c t.val t.isLt).2.2.2.1 (ix2 s ch) = Cert.Spec.psum (V c main_arg0) (segs V c) s ch := by
  unfold Cert.Spec.psum
  refine acc_tiles (N := cfg0.N) N_0 (fun n h => (outsAt0 V c n h).2.2.2.1 (ix2 s ch))
    (fun r => if (segs V c r).toInt = (s.val : ℤ) then (V c main_arg0 : S2000000x32.Idx → EReal) (ix2 r ch) else 0)
    (fun n h => ∑ p : Fin 16000, if ((xb1 V c ⟨n, h⟩ (ix2 0 p) : BitVec 32)).toInt = (s.val : ℤ)
      then (xb0 V c ⟨n, h⟩ (ix2 p ch) : EReal) else 0)
    ?_ ?_ ?_ t.val t.isLt ht
  · intro n h
    exact Finset.sum_congr rfl fun p _ => by rw [xb1_apply V c ⟨n, h⟩ p, xb0_apply V c ⟨n, h⟩ p ch]; rfl
  · intro h
    show (outsAt0 V c (⟨0, h⟩ : Fin cfg0.N).val (⟨0, h⟩ : Fin cfg0.N).isLt).2.2.2.1 (ix2 s ch) = _
    rw [step11_A V c ⟨0, h⟩ rfl, R0Y.pay3_apply _ _ _ (xb0_fin V c ⟨0, h⟩ hX), R0Y.pay7_apply, zero_add]
  · intro n h
    have hB : ¬(⟨n + 1, h⟩ : Fin cfg0.N).val % 125 = 0 := by
      have hN : cfg0.N = 125 := N_0
      show ¬(n + 1) % 125 = 0
      omega
    show (outsAt0 V c (⟨n + 1, h⟩ : Fin cfg0.N).val (⟨n + 1, h⟩ : Fin cfg0.N).isLt).2.2.2.1 (ix2 s ch) = _
    rw [step11_B V c ⟨n + 1, h⟩ hB, R0Y.pay3_apply _ _ _ (xb0_fin V c ⟨n + 1, h⟩ hX)]
    rfl

private theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

private theorem blk11_read (t : Fin cfg0.N) (G : S8x32.Idx → EReal) :
    (((cfg0.win 11).blk t).view.read (Elt Ideal) G : S8x32.Idx → EReal) = G := by
  funext j
  rw [View.read_apply]
  show G _ = G j
  congr 1
  funext a
  apply Fin.ext
  obtain ⟨e0, e1⟩ := idx11 t
  match a with
  | ⟨0, _⟩ => show win0_11.index t (0 : Fin 2) * 8 + 1 * (j 0).val = (j 0).val; rw [e0]; omega
  | ⟨1, _⟩ => show win0_11.index t (1 : Fin 2) * 32 + 1 * (j 1).val = (j 1).val; rw [e1]; omega

private theorem flushed11 (c : Dev nD) (hX : ∀ i, ∃ x : ℝ, (V c main_arg0 : S2000000x32.Idx → EReal) i = (x : EReal))
    (t : Fin cfg0.N) (hf : (cfg0.win 11).flush t = true) :
    (dat0 (F := Ideal) V c).flushed 11 t = ((cfg0.win 11).blk t).view.read (Elt Ideal) (G11 V c) := by
  have hN : cfg0.N = 125 := N_0
  have h124 : t.val = 124 := by have := (flush0_11 t).mp hf; have := t.isLt; omega
  refine Eq.trans ?_ (blk11_read t (G11 V c)).symm
  show (cfg0.win 11).cut (grid0.coords t) ((dat0 V c).after 11 t) = _
  rw [after0_11]
  show (fun j : S8x32.Idx => (outsAt0 V c t.val t.isLt).2.2.2.1 j) = G11 V c
  funext j
  obtain ⟨s, ch, rfl⟩ : ∃ (s : Fin 8) (ch : Fin 32), j = ix2 s ch := ⟨j 0, j 1, eq_ix2 j⟩
  exact acc11 V c hX t h124 s ch

/-- The [8, 32] array of the segments' sums, likewise, the rows being finite. -/
theorem final0_11 (c : Dev nD) (hX : ∀ i, ∃ x : ℝ, (V c main_arg0 : S2000000x32.Idx → EReal) i = (x : EReal)) :
    (dat0 (F := Ideal) V c).arrAt 11 cfg0.N = G11 V c :=
  (dat0 (F := Ideal) V c).arrAt_eq_of_cover 11 (G11 V c) (flushed11 V c hX) fun i =>
    ⟨⟨124, t124⟩, (flush0_11 ⟨124, t124⟩).mpr rfl, by
      show i ∈ ((View.whole main_v1_3).slice (win0_11.rect ⟨124, t124⟩)).set
      rw [View.set_slice_whole, Rect.mem_set_unit]
      intro a
      have h0 : (i 0 : Nat) < 8 := (i 0).isLt
      have h1 : (i 1 : Nat) < 32 := (i 1).isLt
      match a with
      | ⟨0, _⟩ =>
        show win0_11.index ⟨124, t124⟩ 0 * win0_11.size 0 ≤ (i 0 : Nat)
          ∧ (i 0 : Nat) < win0_11.index ⟨124, t124⟩ 0 * win0_11.size 0 + win0_11.xsize (grid0.coords ⟨124, t124⟩) 0
        rw [show win0_11.index ⟨124, t124⟩ 0 * win0_11.size 0 = 0 from by decide +kernel,
          show win0_11.xsize (grid0.coords ⟨124, t124⟩) 0 = 8 from by decide +kernel]
        omega
      | ⟨1, _⟩ =>
        show win0_11.index ⟨124, t124⟩ 1 * win0_11.size 1 ≤ (i 1 : Nat)
          ∧ (i 1 : Nat) < win0_11.index ⟨124, t124⟩ 1 * win0_11.size 1 + win0_11.xsize (grid0.coords ⟨124, t124⟩) 1
        rw [show win0_11.index ⟨124, t124⟩ 1 * win0_11.size 1 = 0 from by decide +kernel,
          show win0_11.xsize (grid0.coords ⟨124, t124⟩) 1 = 32 from by decide +kernel]
        omega⟩

/-! ### The mask head, tile by tile -/

private theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

private theorem xb4_eq (c : Dev nD) (t : Fin cfg0.N) : xb4 V c t = (V c main_arg8 : S32x32.Idx → EReal) := by
  funext j
  show iblk0 (F := Ideal) V c 4 t j = _
  unfold iblk0
  rw [View.read_apply]
  show (V c main_arg8 : S32x32.Idx → EReal) _ = (V c main_arg8 : S32x32.Idx → EReal) j
  congr 1
  funext a
  apply Fin.ext
  obtain ⟨e0, e1⟩ := idx4 t
  match a with
  | ⟨0, _⟩ => show win0_4.index t (0 : Fin 2) * 32 + 1 * (j 0).val = (j 0).val; rw [e0]; omega
  | ⟨1, _⟩ => show win0_4.index t (1 : Fin 2) * 32 + 1 * (j 1).val = (j 1).val; rw [e1]; omega

private theorem idx5 : ∀ t : Fin cfg0.N, win0_5.index t (0 : Fin 1) = 0 :=
  (by decide +kernel : ∀ t : Fin grid0.N, win0_5.index t (0 : Fin 1) = 0)

private theorem xb5_eq (c : Dev nD) (t : Fin cfg0.N) : xb5 V c t = (V c main_arg9 : S32.Idx → EReal) := by
  funext j
  show iblk0 (F := Ideal) V c 5 t j = _
  unfold iblk0
  rw [View.read_apply]
  show (V c main_arg9 : S32.Idx → EReal) _ = (V c main_arg9 : S32.Idx → EReal) j
  congr 1
  funext a
  apply Fin.ext
  have e0 := idx5 t
  match a with
  | ⟨0, _⟩ => show win0_5.index t (0 : Fin 1) * 32 + 1 * (j 0).val = (j 0).val; rw [e0]; omega

private theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

private theorem xb6_eq (c : Dev nD) (t : Fin cfg0.N) : xb6 V c t = (V c main_arg10 : S32x1.Idx → EReal) := by
  funext j
  show iblk0 (F := Ideal) V c 6 t j = _
  unfold iblk0
  rw [View.read_apply]
  show (V c main_arg10 : S32x1.Idx → EReal) _ = (V c main_arg10 : S32x1.Idx → EReal) j
  congr 1
  funext a
  apply Fin.ext
  obtain ⟨e0, e1⟩ := idx6 t
  match a with
  | ⟨0, _⟩ => show win0_6.index t (0 : Fin 2) * 32 + 1 * (j 0).val = (j 0).val; rw [e0]; omega
  | ⟨1, _⟩ => show win0_6.index t (1 : Fin 2) * 1 + 1 * (j 1).val = (j 1).val; rw [e1]; omega

private theorem idx7 : ∀ t : Fin cfg0.N, win0_7.index t (0 : Fin 1) = 0 :=
  (by decide +kernel : ∀ t : Fin grid0.N, win0_7.index t (0 : Fin 1) = 0)

private theorem xb7_eq (c : Dev nD) (t : Fin cfg0.N) : xb7 V c t = (V c main_arg11 : S1.Idx → EReal) := by
  funext j
  show iblk0 (F := Ideal) V c 7 t j = _
  unfold iblk0
  rw [View.read_apply]
  show (V c main_arg11 : S1.Idx → EReal) _ = (V c main_arg11 : S1.Idx → EReal) j
  congr 1
  funext a
  apply Fin.ext
  have e0 := idx7 t
  match a with
  | ⟨0, _⟩ => show win0_7.index t (0 : Fin 1) * 1 + 1 * (j 0).val = (j 0).val; rw [e0]; omega

/-- The mask head of a tile's row is the mask head of the array's row. -/
private theorem mask_tile {X : Cert.Spec.Arr2 2000000 32} {x0 : Cert.Spec.Arr2 16000 32} (MW1 : Cert.Spec.Arr2 32 32)
    (mb1 : Cert.Spec.Arr1 32) (MW2 : Cert.Spec.Arr2 32 1) (mb2 : Cert.Spec.Arr1 1) (f : Fin 16000 → Fin 2000000)
    (hx : ∀ p k, x0 (ix2 p k) = X (ix2 (f p) k)) (p : Fin 16000) :
    Cert.Spec.mask x0 MW1 mb1 MW2 mb2 p = Cert.Spec.mask X MW1 mb1 MW2 mb2 (f p) := by
  unfold Cert.Spec.mask
  simp only [hpre_tile MW1 mb1 f hx]

private theorem mask_blk (c : Dev nD) (t : Fin cfg0.N) (p : Fin 16000) :
    Cert.Spec.mask (xb0 V c t) (xb4 V c t) (xb5 V c t) (xb6 V c t) (xb7 V c t) p
      = Cert.Spec.mask (V c main_arg0) (V c main_arg8) (V c main_arg9) (V c main_arg10) (V c main_arg11) (row t p) := by
  rw [xb4_eq, xb5_eq, xb6_eq, xb7_eq]
  exact mask_tile (X := V c main_arg0) (x0 := xb0 V c t) (V c main_arg8) (V c main_arg9) (V c main_arg10) (V c main_arg11)
    (row t) (xb0_apply V c t) p

private theorem step8_B (c : Dev nD) (t : Fin cfg0.N) (h0 : ¬t.val % 125 = 0) :
    (outsAt0 V c t.val t.isLt).1
      = k0_pay1 (F := Ideal) (k0_pay13 (xb6 V c t)) (k0_pay14 (xb0 V c t) (xb4 V c t) (xb5 V c t)) (xb7 V c t) := by
  rw [outsAt0_B V c t h0]
  dsimp only
  exact R0P.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (xb0 V c t) (xb1 V c t) (xb2 V c t) (xb3 V c t) (xb4 V c t) (xb5 V c t) (xb6 V c t) (xb7 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2

private theorem step8_A (c : Dev nD) (t : Fin cfg0.N) (h0 : t.val % 125 = 0) :
    (outsAt0 V c t.val t.isLt).1
      = k0_pay1 (F := Ideal) (k0_pay13 (xb6 V c t)) (k0_pay14 (xb0 V c t) (xb4 V c t) (xb5 V c t)) (xb7 V c t) := by
  rw [outsAt0_A V c t h0]
  dsimp only
  exact R0P.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (xb0 V c t) (xb1 V c t) (xb2 V c t) (xb3 V c t) (xb4 V c t) (xb5 V c t) (xb6 V c t) (xb7 V c t)

/-- Every point leaves the mask head of its tile in the first output's buffer. -/
private theorem out8 (c : Dev nD) (t : Fin cfg0.N) :
    (outsAt0 V c t.val t.isLt).1
      = k0_pay1 (F := Ideal) (k0_pay13 (xb6 V c t)) (k0_pay14 (xb0 V c t) (xb4 V c t) (xb5 V c t)) (xb7 V c t) := by
  by_cases h0 : t.val % 125 = 0
  · exact step8_A V c t h0
  · exact step8_B V c t h0

/-- The block index of the first result at point t is (t, 0), and no block is cut short. -/
private theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

private theorem xs8 : ∀ t : Fin cfg0.N, win0_8.xsize (grid0.coords t) (0 : Fin 2) = 16000 ∧ win0_8.xsize (grid0.coords t) (1 : Fin 2) = 1 :=
  (by decide +kernel : ∀ t : Fin grid0.N, win0_8.xsize (grid0.coords t) (0 : Fin 2) = 16000 ∧ win0_8.xsize (grid0.coords t) (1 : Fin 2) = 1)

/-- Block t of the [2000000, 1] result array holds its rows 16000 t … 16000 t + 15999. -/
private theorem blk8_read (t : Fin cfg0.N) (G : S2000000x1.Idx → EReal) (p : Fin 16000) (u : Fin 1) :
    (((cfg0.win 8).blk t).view.read (Elt Ideal) G : S16000x1.Idx → EReal) (ix2 p u) = G (ix2 (row t p) u) := by
  rw [View.read_apply]
  show G _ = G _
  congr 1
  funext a
  apply Fin.ext
  obtain ⟨e0, e1⟩ := idx8 t
  match a with
  | ⟨0, _⟩ => show win0_8.index t (0 : Fin 2) * 16000 + 1 * p.val = 16000 * t.val + p.val; rw [e0]; omega
  | ⟨1, _⟩ => show win0_8.index t (1 : Fin 2) * 1 + 1 * u.val = u.val; rw [e1]; omega

/-- What point t writes back to the first result is block t of the mask head of all rows. -/
private theorem flushed8 (c : Dev nD) (t : Fin cfg0.N) :
    (dat0 (F := Ideal) V c).flushed 8 t = ((cfg0.win 8).blk t).view.read (Elt Ideal) (G8 V c) := by
  show (cfg0.win 8).cut (grid0.coords t) ((dat0 V c).after 8 t) = _
  rw [after0_8]
  show (fun j : S16000x1.Idx => (outsAt0 V c t.val t.isLt).1 j)
    = (((cfg0.win 8).blk t).view.read (Elt Ideal) (G8 V c) : S16000x1.Idx → EReal)
  funext j
  obtain ⟨p, u, rfl⟩ : ∃ (p : Fin 16000) (u : Fin 1), j = ix2 p u := ⟨j 0, j 1, eq_ix2 j⟩
  rw [blk8_read t (G8 V c) p u, out8 V c t, R0Y.pay1_apply, mask_blk]
  rfl

/-- Row r of the first result lies in the block of point r / 16000. -/
private theorem cover8 (i : S2000000x1.Idx) :
    ∃ t : Fin cfg0.N, (cfg0.win 8).flush t = true ∧ i ∈ ((cfg0.win 8).blk t).view.set := by
  have hN : cfg0.N = 125 := N_0
  have hi0 : (i 0).val < 2000000 := (i 0).isLt
  have hi1 : (i 1).val < 1 := (i 1).isLt
  obtain ⟨T, hT⟩ : ∃ T : Fin cfg0.N, T.val = (i 0).val / 16000 := ⟨⟨(i 0).val / 16000, by omega⟩, rfl⟩
  refine ⟨T, flush0_8 T, ?_⟩
  show i ∈ ((View.whole main_v1_0).slice (win0_8.rect T)).set
  rw [View.set_slice_whole, Rect.mem_set_unit]
  intro a
  obtain ⟨e0, e1⟩ := idx8 T
  obtain ⟨s0, s1⟩ := xs8 T
  match a with
  | ⟨0, _⟩ =>
    show win0_8.index T (0 : Fin 2) * 16000 ≤ (i 0).val
      ∧ (i 0).val < win0_8.index T (0 : Fin 2) * 16000 + win0_8.xsize (grid0.coords T) (0 : Fin 2)
    rw [e0, s0, hT]
    omega
  | ⟨1, _⟩ =>
    show win0_8.index T (1 : Fin 2) * 1 ≤ (i 1).val
      ∧ (i 1).val < win0_8.index T (1 : Fin 2) * 1 + win0_8.xsize (grid0.coords T) (1 : Fin 2)
    rw [e1, s1]
    omega

/-- The first result ends holding the mask head of every row. -/
theorem final0_8 (c : Dev nD) : (dat0 (F := Ideal) V c).arrAt 8 cfg0.N = G8 V c :=
  (dat0 (F := Ideal) V c).arrAt_eq_of_cover 8 (G8 V c) (fun t _ => flushed8 V c t) cover8

end Cert.KernelIdeal.R0

end
-- ==== Proof.Region1.lean ====
import proofs.«411966_j25761213841798_3_alg».proof.Proof.Gen.KernelIdeal.Frame
import proofs.«411966_j25761213841798_3_alg».proof.Proof.Spec
import proofs.«411966_j25761213841798_3_alg».proof.Proof.LibPlainMatmul
import proofs.«411966_j25761213841798_3_alg».proof.Proof.LibColumn
import Idealize.ShloMosaic.Lib.Pipeline.Value
import Idealize.ShloMosaic.Lib.ValueLayout
import Idealize.ShloMosaic.PureOps.Ideal.Laws

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## What the body stores, read at one element of its block -/

/-- The feature block transposed, as the first product's right operand: entry (k, p) is the block's (p, k). -/
private theorem featT_apply (x0 : Vec Ideal S16000x32 .f32) (k : Fin 32) (p : Fin 16000) :
    (truncf .bf16 (transpose S32x16000 [1, 0] x0 transposes_S16000x32_p1_0_S32x16000) bitsLt_bf16_f32 : FVec Ideal S32x16000 .bf16) (ix2 k p)
      = x0 (ix2 p k) :=
  transpose_ix2_apply x0 transposes_S16000x32_p1_0_S32x16000 k p

/-- The first linear layer at channel `c`, tile row `p`: the weight's row `c` against the block's row `p`. -/
private theorem hidden_apply (x0 : Vec Ideal S16000x32 .f32) (x5 : Vec Ideal S32x32 .f32) (c : Fin 32) (p : Fin 16000) :
    (matmul dot_S32x32_S32x16000_S32x16000_1_0_0_1_n_n none
        (truncf .bf16 (shapeCast S32x32 x5 shapeCasts_S32x32_S32x32) bitsLt_bf16_f32 : FVec Ideal S32x32 .bf16)
        (truncf .bf16 (transpose S32x16000 [1, 0] x0 transposes_S16000x32_p1_0_S32x16000) bitsLt_bf16_f32 : FVec Ideal S32x16000 .bf16)
        (constant S32x16000 .f32 0x00000000#32) : FVec Ideal S32x16000 .f32) (ix2 c p)
      = ∑ k : Fin 32, x5 (ix2 c k) * x0 (ix2 p k) := by
  refine (Cert.Lib.PlainMatmul.matmul_zero_apply dot_S32x32_S32x16000_S32x16000_1_0_0_1_n_n rfl rfl rfl rfl rfl rfl none _ _ c p).trans ?_
  refine Finset.sum_congr rfl fun k _ => ?_
  rw [featT_apply, shapeCast_self]
  rfl

/-- A column of 32 spread across the tile's rows reads, at (c, p), the column's entry `c`. -/
private theorem col32_apply (v : Vec Ideal S32x1 .f32) (c : Fin 32) (p : Fin 16000) :
    (broadcastTo S32x16000 (shapeCast S32x1 v shapeCasts_S32x1_S32x1) broadcasts_S32x1_S32x16000 : FVec Ideal S32x16000 .f32) (ix2 c p)
      = v (ix2 c 0) := by
  rw [shapeCast_self]
  exact Cert.Lib.Column.broadcastTo_a1_ab_apply v broadcasts_S32x1_S32x16000 c p

/-- A column of 32 spread across the tile's rows, with no cast before it. -/
private theorem col32_apply' (v : FVec Ideal S32x1 .f32) (c : Fin 32) (p : Fin 16000) :
    (broadcastTo S32x16000 v broadcasts_S32x1_S32x16000 : FVec Ideal S32x16000 .f32) (ix2 c p) = v (ix2 c 0) :=
  Cert.Lib.Column.broadcastTo_a1_ab_apply v broadcasts_S32x1_S32x16000 c p

/-- A column of 3 spread across the tile's rows reads, at (j, p), the column's entry `j`. -/
private theorem col3_apply (v : Vec Ideal S3x1 .f32) (j : Fin 3) (p : Fin 16000) :
    (broadcastTo S3x16000 (shapeCast S3x1 v shapeCasts_S3x1_S3x1) broadcasts_S3x1_S3x16000 : FVec Ideal S3x16000 .f32) (ix2 j p)
      = v (ix2 j 0) := by
  rw [shapeCast_self]
  exact Cert.Lib.Column.broadcastTo_a1_ab_apply v broadcasts_S3x1_S3x16000 j p

/-- The normalisation's scale of channel `c`: the reciprocal square root of the variance plus the epsilon. -/
private theorem scale_apply (x2 : Vec Ideal S32x1 .f32) (c : Fin 32) :
    (rsqrt (addf (shapeCast S32x1 x2 shapeCasts_S32x1_S32x1) (broadcast S32x1 (Scalar.ofBits .f32 0x38D1B717#32))) : FVec Ideal S32x1 .f32) (ix2 c 0)
      = Ideal.rsqrt (x2 (ix2 c 0) + Cert.Spec.cEps) := by
  rw [shapeCast_self]
  rfl

/-- The second product at (j, p): the second weight's row `j` against the normalised, rectified hidden channels of
    tile row `p`. -/
private theorem pay2_apply (x0 : Vec Ideal S16000x32 .f32) (x1 x2 x3 x4 : Vec Ideal S32x1 .f32) (x5 : Vec Ideal S32x32 .f32)
    (x6 : Vec Ideal S32x1 .f32) (x7 : Vec Ideal S3x32 .f32) (j : Fin 3) (p : Fin 16000) :
    k1_pay2 x0 x5 x6 x2 x1 x3 x4 x7 (ix2 j p)
      = ∑ c : Fin 32, x7 (ix2 j c) *
          max (((((∑ k : Fin 32, x5 (ix2 c k) * x0 (ix2 p k)) + x6 (ix2 c 0)) - x1 (ix2 c 0))
                * Ideal.rsqrt (x2 (ix2 c 0) + Cert.Spec.cEps)) * x3 (ix2 c 0) + x4 (ix2 c 0)) Cert.Spec.c0 := by
  unfold k1_pay2
  refine (Cert.Lib.PlainMatmul.matmul_zero_apply dot_S3x32_S32x16000_S3x16000_1_0_0_1_n_n rfl rfl rfl rfl rfl rfl none _ _ j p).trans ?_
  refine Finset.sum_congr rfl fun c _ => ?_
  rw [truncf_apply, truncf_apply, shapeCast_self, maximumf_apply, addf_apply, mulf_apply, mulf_apply, subf_apply, addf_apply,
    hidden_apply, col32_apply, col32_apply, col32_apply, col32_apply, col32_apply', scale_apply, broadcast_apply]
  rfl

/-- What the body stores at (j, p) of its block. -/
private theorem pay1_apply (x0 : Vec Ideal S16000x32 .f32) (x1 x2 x3 x4 : Vec Ideal S32x1 .f32) (x5 : Vec Ideal S32x32 .f32)
    (x6 : Vec Ideal S32x1 .f32) (x7 : Vec Ideal S3x32 .f32) (x8 : Vec Ideal S3x1 .f32) (j : Fin 3) (p : Fin 16000) :
    k1_pay1 (k1_pay2 x0 x5 x6 x2 x1 x3 x4 x7) x8 (ix2 j p)
      = (∑ c : Fin 32, x7 (ix2 j c) *
          max (((((∑ k : Fin 32, x5 (ix2 c k) * x0 (ix2 p k)) + x6 (ix2 c 0)) - x1 (ix2 c 0))
                * Ideal.rsqrt (x2 (ix2 c 0) + Cert.Spec.cEps)) * x3 (ix2 c 0) + x4 (ix2 c 0)) Cert.Spec.c0)
        + x8 (ix2 j 0) := by
  unfold k1_pay1
  rw [addf_apply, col3_apply, pay2_apply]

/-! ## From the blocks to the array -/

variable (V : (c : Dev nD) → (b : Ref sig .tc) → Buf (Elt Ideal) ((c : Thread nD τ).loc b))

/-- What the second call leaves in its [3, 2000000] result array, as one function of the contents its operands
    have when the call is entered. -/
def G1 (c : Dev nD) : Vec Ideal S3x2000000 .f32 := fun i =>
  Cert.Spec.ptT (V c main_arg0) (V c main_v23) (V c main_v24) (V c main_v25) (V c main_v26) (V c main_v19)
    (V c main_v21) (V c main_v20) (V c main_v22) (i 0) (i 1)

private theorem hz : (![0, 0] : Fin 2 → Nat) = fun _ => 0 := funext fun a => by fin_cases a <;> rfl

/-- One tile of the result: if the tile's feature block is rows `16000·tv …` of the feature array and its eight small
    operands are the whole arrays, what the body stores at (j, p) is the target function at (j, 16000·tv + p). -/
private theorem tile_eq (X : Vec Ideal S2000000x32 .f32) (A1 A2 A3 A4 : Vec Ideal S32x1 .f32) (A5 : Vec Ideal S32x32 .f32)
    (A6 : Vec Ideal S32x1 .f32) (A7 : Vec Ideal S3x32 .f32) (A8 : Vec Ideal S3x1 .f32)
    (x0 : Vec Ideal S16000x32 .f32) (x1 x2 x3 x4 : Vec Ideal S32x1 .f32) (x5 : Vec Ideal S32x32 .f32)
    (x6 : Vec Ideal S32x1 .f32) (x7 : Vec Ideal S3x32 .f32) (x8 : Vec Ideal S3x1 .f32) (tv : ℕ)
    (h0 : ∀ (p : Fin 16000) (k : Fin 32) (r : Fin 2000000), r.val = 16000 * tv + p.val → x0 (ix2 p k) = X (ix2 r k))
    (h1 : x1 = A1) (h2 : x2 = A2) (h3 : x3 = A3) (h4 : x4 = A4) (h5 : x5 = A5) (h6 : x6 = A6) (h7 : x7 = A7) (h8 : x8 = A8)
    (j : Fin 3) (p : Fin 16000) (r : Fin 2000000) (hr : r.val = 16000 * tv + p.val) :
    k1_pay1 (k1_pay2 x0 x5 x6 x2 x1 x3 x4 x7) x8 (ix2 j p) = Cert.Spec.ptT X A1 A2 A3 A4 A5 A6 A7 A8 j r := by
  subst h1 h2 h3 h4 h5 h6 h7 h8
  rw [pay1_apply]
  unfold Cert.Spec.ptT
  simp only [h0 p _ r hr]

/-- The printed index maps, decided over the grid: the feature window and the result window move with the point
    (along rows and along columns), every other window stays at block (0, 0). -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = t.val :=
  (by decide +kernel : ∀ t : Fin grid1.N, _)

/-- The feature window's block at point `t` is rows `16000·t … 16000·t + 15999` of the feature array. -/
private theorem blk0_apply (c : Dev nD) (t : Fin cfg1.N) (p : Fin 16000) (k : Fin 32) (r : Fin 2000000)
    (hr : r.val = 16000 * t.val + p.val) :
    (iblk1 V c 0 t : Vec Ideal S16000x32 .f32) (ix2 p k) = (V c main_arg0 : Vec Ideal S2000000x32 .f32) (ix2 r k) := by
  obtain ⟨e0, e1, -⟩ := idx_facts t
  show V c main_arg0 (((cfg1.win 0).blk t).view.emb (ix2 p k)) = V c main_arg0 (ix2 r k)
  refine congrArg _ (funext fun a => Fin.ext ?_)
  match a with
  | ⟨0, _⟩ => show win1_0.index t (0 : Fin 2) * 16000 + 1 * p.val = r.val; omega
  | ⟨1, _⟩ => show win1_0.index t (1 : Fin 2) * 32 + 1 * k.val = k.val; omega

/-- Each small operand's window stays at block (0, 0) of an array of the block's own shape: its block is the array. -/
private theorem blk1_eq (c : Dev nD) (t : Fin cfg1.N) : (iblk1 V c 1 t : Vec Ideal S32x1 .f32) = V c main_v23 := by
  obtain ⟨-, -, e0, e1, -⟩ := idx_facts t
  funext y
  show V c main_v23 (((cfg1.win 1).blk t).view.emb y) = V c main_v23 y
  refine congrArg _ (funext fun a => Fin.ext ?_)
  match a with
  | ⟨0, _⟩ => show win1_1.index t (0 : Fin 2) * 32 + 1 * (y 0).val = (y 0).val; omega
  | ⟨1, _⟩ => show win1_1.index t (1 : Fin 2) * 1 + 1 * (y 1).val = (y 1).val; omega
private theorem blk2_eq (c : Dev nD) (t : Fin cfg1.N) : (iblk1 V c 2 t : Vec Ideal S32x1 .f32) = V c main_v24 := by
  obtain ⟨-, -, -, -, e0, e1, -⟩ := idx_facts t
  funext y
  show V c main_v24 (((cfg1.win 2).blk t).view.emb y) = V c main_v24 y
  refine congrArg _ (funext fun a => Fin.ext ?_)
  match a with
  | ⟨0, _⟩ => show win1_2.index t (0 : Fin 2) * 32 + 1 * (y 0).val = (y 0).val; omega
  | ⟨1, _⟩ => show win1_2.index t (1 : Fin 2) * 1 + 1 * (y 1).val = (y 1).val; omega
private theorem blk3_eq (c : Dev nD) (t : Fin cfg1.N) : (iblk1 V c 3 t : Vec Ideal S32x1 .f32) = V c main_v25 := by
  obtain ⟨-, -, -, -, -, -, e0, e1, -⟩ := idx_facts t
  funext y
  show V c main_v25 (((cfg1.win 3).blk t).view.emb y) = V c main_v25 y
  refine congrArg _ (funext fun a => Fin.ext ?_)
  match a with
  | ⟨0, _⟩ => show win1_3.index t (0 : Fin 2) * 32 + 1 * (y 0).val = (y 0).val; omega
  | ⟨1, _⟩ => show win1_3.index t (1 : Fin 2) * 1 + 1 * (y 1).val = (y 1).val; omega
private theorem blk4_eq (c : Dev nD) (t : Fin cfg1.N) : (iblk1 V c 4 t : Vec Ideal S32x1 .f32) = V c main_v26 := by
  obtain ⟨-, -, -, -, -, -, -, -, e0, e1, -⟩ := idx_facts t
  funext y
  show V c main_v26 (((cfg1.win 4).blk t).view.emb y) = V c main_v26 y
  refine congrArg _ (funext fun a => Fin.ext ?_)
  match a with
  | ⟨0, _⟩ => show win1_4.index t (0 : Fin 2) * 32 + 1 * (y 0).val = (y 0).val; omega
  | ⟨1, _⟩ => show win1_4.index t (1 : Fin 2) * 1 + 1 * (y 1).val = (y 1).val; omega
private theorem blk5_eq (c : Dev nD) (t : Fin cfg1.N) : (iblk1 V c 5 t : Vec Ideal S32x32 .f32) = V c main_v19 := by
  obtain ⟨-, -, -, -, -, -, -, -, -, -, e0, e1, -⟩ := idx_facts t
  funext y
  show V c main_v19 (((cfg1.win 5).blk t).view.emb y) = V c main_v19 y
  refine congrArg _ (funext fun a => Fin.ext ?_)
  match a with
  | ⟨0, _⟩ => show win1_5.index t (0 : Fin 2) * 32 + 1 * (y 0).val = (y 0).val; omega
  | ⟨1, _⟩ => show win1_5.index t (1 : Fin 2) * 32 + 1 * (y 1).val = (y 1).val; omega
private theorem blk6_eq (c : Dev nD) (t : Fin cfg1.N) : (iblk1 V c 6 t : Vec Ideal S32x1 .f32) = V c main_v21 := by
  obtain ⟨-, -, -, -, -, -, -, -, -, -, -, -, e0, e1, -⟩ := idx_facts t
  funext y
  show V c main_v21 (((cfg1.win 6).blk t).view.emb y) = V c main_v21 y
  refine congrArg _ (funext fun a => Fin.ext ?_)
  match a with
  | ⟨0, _⟩ => show win1_6.index t (0 : Fin 2) * 32 + 1 * (y 0).val = (y 0).val; omega
  | ⟨1, _⟩ => show win1_6.index t (1 : Fin 2) * 1 + 1 * (y 1).val = (y 1).val; omega
private theorem blk7_eq (c : Dev nD) (t : Fin cfg1.N) : (iblk1 V c 7 t : Vec Ideal S3x32 .f32) = V c main_v20 := by
  obtain ⟨-, -, -, -, -, -, -, -, -, -, -, -, -, -, e0, e1, -⟩ := idx_facts t
  funext y
  show V c main_v20 (((cfg1.win 7).blk t).view.emb y) = V c main_v20 y
  refine congrArg _ (funext fun a => Fin.ext ?_)
  match a with
  | ⟨0, _⟩ => show win1_7.index t (0 : Fin 2) * 3 + 1 * (y 0).val = (y 0).val; omega
  | ⟨1, _⟩ => show win1_7.index t (1 : Fin 2) * 32 + 1 * (y 1).val = (y 1).val; omega
private theorem blk8_eq (c : Dev nD) (t : Fin cfg1.N) : (iblk1 V c 8 t : Vec Ideal S3x1 .f32) = V c main_v22 := by
  obtain ⟨-, -, -, -, -, -, -, -, -, -, -, -, -, -, -, -, e0, e1, -⟩ := idx_facts t
  funext y
  show V c main_v22 (((cfg1.win 8).blk t).view.emb y) = V c main_v22 y
  refine congrArg _ (funext fun a => Fin.ext ?_)
  match a with
  | ⟨0, _⟩ => show win1_8.index t (0 : Fin 2) * 3 + 1 * (y 0).val = (y 0).val; omega
  | ⟨1, _⟩ => show win1_8.index t (1 : Fin 2) * 1 + 1 * (y 1).val = (y 1).val; omega

/-- WHAT POINT `t` WRITES BACK is block `t` of the target function of the operands as the call finds them. -/
private theorem flushed_eq (c : Dev nD) (t : Fin cfg1.N) :
    (dat1 (F := Ideal) V c).flushed 9 t = ((cfg1.win 9).blk t).view.read (Elt Ideal) (G1 V c) := by
  show (cfg1.win 9).cut (grid1.coords t) ((dat1 V c).after 9 t) = _
  rw [after1_9]
  unfold out1_9
  rw [View.canon_unit_zero hz]
  simp only [View.ld_unit_zero (S := S16000x32) hz, View.ld_unit_zero (S := S32x32) hz, View.ld_unit_zero (S := S32x1) hz,
    View.ld_unit_zero (S := S3x32) hz, View.ld_unit_zero (S := S3x1) hz]
  obtain ⟨-, -, -, -, -, -, -, -, -, -, -, -, -, -, -, -, -, -, e0, e1⟩ := idx_facts t
  have hN : cfg1.N = 125 := N_1
  have ht : t.val < 125 := hN ▸ t.isLt
  funext y
  have hy0 : (y 0).val < 3 := (y 0).isLt
  have hy1 : (y 1).val < 16000 := (y 1).isLt
  have hr : 16000 * t.val + (y 1).val < 2000000 := by omega
  have hsrc : (cfg1.win 9).xinj (grid1.coords t) y = ix2 (⟨(y 0).val, hy0⟩ : Fin 3) (⟨(y 1).val, hy1⟩ : Fin 16000) :=
    funext fun a => match a with | ⟨0, _⟩ => rfl | ⟨1, _⟩ => rfl
  have hdst : ((cfg1.win 9).blk t).view.emb y
      = ix2 (⟨(y 0).val, hy0⟩ : Fin 3) (⟨16000 * t.val + (y 1).val, hr⟩ : Fin 2000000) :=
    funext fun a => Fin.ext (by
      match a with
      | ⟨0, _⟩ => show win1_9.index t (0 : Fin 2) * 3 + 1 * (y 0).val = (y 0).val; omega
      | ⟨1, _⟩ => show win1_9.index t (1 : Fin 2) * 16000 + 1 * (y 1).val = 16000 * t.val + (y 1).val; omega)
  show k1_pay1 (k1_pay2 (iblk1 V c 0 t) (iblk1 V c 5 t) (iblk1 V c 6 t) (iblk1 V c 2 t) (iblk1 V c 1 t) (iblk1 V c 3 t)
      (iblk1 V c 4 t) (iblk1 V c 7 t)) (iblk1 V c 8 t) ((cfg1.win 9).xinj (grid1.coords t) y)
    = G1 V c (((cfg1.win 9).blk t).view.emb y)
  rw [hsrc, hdst]
  exact tile_eq (V c main_arg0) (V c main_v23) (V c main_v24) (V c main_v25) (V c main_v26) (V c main_v19) (V c main_v21)
    (V c main_v20) (V c main_v22) (iblk1 V c 0 t) (iblk1 V c 1 t) (iblk1 V c 2 t) (iblk1 V c 3 t) (iblk1 V c 4 t)
    (iblk1 V c 5 t) (iblk1 V c 6 t) (iblk1 V c 7 t) (iblk1 V c 8 t) t.val (blk0_apply V c t)
    (blk1_eq V c t) (blk2_eq V c t) (blk3_eq V c t) (blk4_eq V c t) (blk5_eq V c t) (blk6_eq V c t) (blk7_eq V c t)
    (blk8_eq V c t) ⟨(y 0).val, hy0⟩ ⟨(y 1).val, hy1⟩ ⟨16000 * t.val + (y 1).val, hr⟩ rfl

/-- An index of the result array is in point `t`'s block iff each coordinate is in the block's range on its axis. -/
private theorem mem_blk (t : Fin cfg1.N) (i : S3x2000000.Idx) :
    i ∈ ((cfg1.win 9).blk t).view.set ↔ ∀ a : Fin 2, win1_9.index t a * S3x16000.size a ≤ (i a).val
      ∧ (i a).val < win1_9.index t a * S3x16000.size a + S3x16000.size a := by
  show i ∈ ((View.whole main_v27).slice (win1_9.rect t)).set ↔ _
  rw [View.set_slice_whole, Rect.mem_set_unit]
  exact Iff.rfl

/-- Every index (j, r) of the result array lies in the block of point `r / 16000`, and every point writes back. -/
private theorem cover (i : S3x2000000.Idx) :
    ∃ t : Fin cfg1.N, (cfg1.win 9).flush t = true ∧ i ∈ ((cfg1.win 9).blk t).view.set := by
  have hN : cfg1.N = 125 := N_1
  have hi0 : (i 0).val < 3 := idx2_lt0 i
  have hi1 : (i 1).val < 2000000 := idx2_lt1 i
  have hq : (i 1).val / 16000 < cfg1.N := by rw [hN]; omega
  refine ⟨⟨(i 1).val / 16000, hq⟩, flush1_9 _, ?_⟩
  obtain ⟨-, -, -, -, -, -, -, -, -, -, -, -, -, -, -, -, -, -, e0, e1⟩ := idx_facts ⟨(i 1).val / 16000, hq⟩
  have e1' : win1_9.index ⟨(i 1).val / 16000, hq⟩ (1 : Fin 2) = (i 1).val / 16000 := e1
  rw [mem_blk]
  intro a
  match a with
  | ⟨0, _⟩ =>
    show win1_9.index ⟨(i 1).val / 16000, hq⟩ (0 : Fin 2) * 3 ≤ (i 0).val
      ∧ (i 0).val < win1_9.index ⟨(i 1).val / 16000, hq⟩ (0 : Fin 2) * 3 + 3
    omega
  | ⟨1, _⟩ =>
    show win1_9.index ⟨(i 1).val / 16000, hq⟩ (1 : Fin 2) * 16000 ≤ (i 1).val
      ∧ (i 1).val < win1_9.index ⟨(i 1).val / 16000, hq⟩ (1 : Fin 2) * 16000 + 16000
    omega

theorem final1_9 (c : Dev nD) : (dat1 (F := Ideal) V c).arrAt 9 cfg1.N = G1 V c :=
  (dat1 (F := Ideal) V c).arrAt_eq_of_cover 9 (G1 V c) (fun t _ => flushed_eq V c t) cover

end Cert.KernelIdeal.R1

end
-- ==== Proof.KernelHost.lean ====
/-
  The idealized kernel program's four results as the specification's functions of the argument arrays.

  The program is: a reshape of the segment words; the first call (mask head, and four accumulators over 125 tiles: the
  sum of the offset head's first linear layer, the sum of its squares, the per-segment sums of the rows and the
  per-segment counts); host arithmetic that turns the accumulators into the mean, the variance and the pooled features
  and lays the small operands out as columns and transposed weights; the second call (the offset head in a channel-major
  layout); a transpose of its result. The contents of every buffer at the boundaries between these stretches are a fold
  from the launch memory; here that fold is read, stretch by stretch, at the buffers the results depend on.
-/
import proofs.«411966_j25761213841798_3_alg».proof.Proof.RunValues
import proofs.«411966_j25761213841798_3_alg».proof.Proof.R0Acc
import proofs.«411966_j25761213841798_3_alg».proof.Proof.Region1
import proofs.«411966_j25761213841798_3_alg».proof.Proof.Spec
import proofs.«411966_j25761213841798_3_alg».proof.Proof.Algebra
import proofs.«411966_j25761213841798_3_alg».proof.Proof.LibColumn
import proofs.«411966_j25761213841798_3_alg».proof.Proof.LibPlainMatmul
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic

set_option maxRecDepth 16384

noncomputable section

namespace Cert.KernelIdeal.KH

open Cert.KernelIdeal Cert.KernelIdeal.Gen
open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (ρ : Dev nD → PrngReg)

/-! ## The argument arrays, named -/

abbrev aX (c : Dev nD) : Cert.Spec.Arr2 2000000 32 := m ((c : Thread nD τ).loc main_arg0)
abbrev aW1 (c : Dev nD) : Cert.Spec.Arr2 32 32 := m ((c : Thread nD τ).loc main_arg2)
abbrev ab1 (c : Dev nD) : Cert.Spec.Arr1 32 := m ((c : Thread nD τ).loc main_arg3)
abbrev agam (c : Dev nD) : Cert.Spec.Arr1 32 := m ((c : Thread nD τ).loc main_arg4)
abbrev abet (c : Dev nD) : Cert.Spec.Arr1 32 := m ((c : Thread nD τ).loc main_arg5)
abbrev aW2 (c : Dev nD) : Cert.Spec.Arr2 32 3 := m ((c : Thread nD τ).loc main_arg6)
abbrev ab2 (c : Dev nD) : Cert.Spec.Arr1 3 := m ((c : Thread nD τ).loc main_arg7)
abbrev aMW1 (c : Dev nD) : Cert.Spec.Arr2 32 32 := m ((c : Thread nD τ).loc main_arg8)
abbrev amb1 (c : Dev nD) : Cert.Spec.Arr1 32 := m ((c : Thread nD τ).loc main_arg9)
abbrev aMW2 (c : Dev nD) : Cert.Spec.Arr2 32 1 := m ((c : Thread nD τ).loc main_arg10)
abbrev amb2 (c : Dev nD) : Cert.Spec.Arr1 1 := m ((c : Thread nD τ).loc main_arg11)
abbrev aIW (c : Dev nD) : Cert.Spec.Arr2 32 1 := m ((c : Thread nD τ).loc main_arg12)
abbrev aib (c : Dev nD) : Cert.Spec.Arr1 1 := m ((c : Thread nD τ).loc main_arg13)
/-- The segment word of each row. -/
abbrev aB (c : Dev nD) : Fin 2000000 → BitVec 32 := fun r => (m ((c : Thread nD τ).loc main_arg1) (ix1 r) : BitVec 32)

/-! ## Before the first call: the arguments as launched, the segment words reshaped -/

theorem V1_arg (c : Dev nD) (b : Ref sig .tc) (hb : b ≠ main_v0) :
    V1 m ρ c b = W0 m ρ c (Proc.devRef .tc b) := by
  show StableHlo.after hostOps0 (W0 m ρ c) (Proc.devRef .tc b) = _
  refine StableHlo.after_of_forall_not_mem (b := Proc.devRef .tc b) _ _ (List.forall_iff_forall_mem.mp ?_)
  simp only [hostOps0, List.Forall, StableHlo.reshape_writes, Finset.mem_singleton]
  exact StableHlo.devRef_ne_of_ne hb

theorem V1_v0 (c : Dev nD) : (V1 m ρ c main_v0 : Vec Ideal S1x2000000 .i32)
    = shapeCast S1x2000000 (m ((c : Thread nD τ).loc main_arg1)) shapeCasts_S2000000_S1x2000000 := by
  show StableHlo.after hostOps0 (W0 m ρ c) (Proc.devRef .tc main_v0) = _
  after_results
  rfl

/-- The segment word of row `r` as the first call sees it is the argument's. -/
theorem segs_eq (c : Dev nD) : R0.segs (V1 m ρ) c = fun r => (m ((c : Thread nD τ).loc main_arg1) (ix1 r) : BitVec 32) := by
  funext r
  unfold R0.segs
  rw [V1_v0]
  exact ValueIdx.shapeCast_a_1a_apply _ _ 0 r

/-! ## After the first call: its five result arrays -/

theorem W2_v1_0 (c : Dev nD) : W2 m ρ c (Proc.devRef .tc main_v1_0) = R0.G8 (V1 m ρ) c :=
  (W2_arr m ρ c 8).trans (R0.final0_8 (V1 m ρ) c)
theorem W2_v1_1 (c : Dev nD) : W2 m ρ c (Proc.devRef .tc main_v1_1) = R0.G9 (V1 m ρ) c :=
  (W2_arr m ρ c 9).trans (R0.final0_9 (V1 m ρ) c)
theorem W2_v1_2 (c : Dev nD) : W2 m ρ c (Proc.devRef .tc main_v1_2) = R0.G10 (V1 m ρ) c :=
  (W2_arr m ρ c 10).trans (R0.final0_10 (V1 m ρ) c)
theorem W2_v1_3 (c : Dev nD) (hX : ∀ i, ∃ x : ℝ, (m ((c : Thread nD τ).loc main_arg0) : S2000000x32.Idx → EReal) i = (x : EReal)) :
    W2 m ρ c (Proc.devRef .tc main_v1_3) = R0.G11 (V1 m ρ) c :=
  (W2_arr m ρ c 11).trans (R0.final0_11 (V1 m ρ) c (by rw [V1_arg m ρ c main_arg0 (by decide)]; exact hX))
theorem W2_v1_4 (c : Dev nD) : W2 m ρ c (Proc.devRef .tc main_v1_4) = R0.G12 (V1 m ρ) c :=
  (W2_arr m ρ c 12).trans (R0.final0_12 (V1 m ρ) c)

/-- An array the first call only reads is, after the call, as the call found it. -/
theorem W2_in0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_in2 (c : Dev nD) : W2 m ρ c (Proc.devRef .tc main_arg2) = V1 m ρ c main_arg2 :=
  (W2_arr m ρ c 2).trans (((dat0 (V1 m ρ) c).arrAt_in 2 rfl _).trans (A_eq0 (V1 m ρ) c 2))
theorem W2_in3 (c : Dev nD) : W2 m ρ c (Proc.devRef .tc main_arg3) = V1 m ρ c main_arg3 :=
  (W2_arr m ρ c 3).trans (((dat0 (V1 m ρ) c).arrAt_in 3 rfl _).trans (A_eq0 (V1 m ρ) c 3))

/-- An argument's buffer the first call does not touch is, after the call, as launched. -/
theorem W2_arg (c : Dev nD) (b : Ref sig .tc) (hb : ∀ w, Pipeline.arrRef spec0 w ≠ b) (hb0 : b ≠ main_v0) :
    W2 m ρ c (Proc.devRef .tc b) = W0 m ρ c (Proc.devRef .tc b) :=
  (W2_of_ne m ρ c b hb).trans (V1_arg m ρ c b hb0)

/-! ## Between the calls: the host arithmetic, and what the second call is given -/

/-- A buffer the host arithmetic between the calls does not write keeps its contents. -/
theorem V3_arg0 (c : Dev nD) : V3 m ρ c main_arg0 = m ((c : Thread nD τ).loc main_arg0) := by
  have h : V3 m ρ c main_arg0 = W2 m ρ c (Proc.devRef .tc main_arg0) := by
    show StableHlo.after hostOps1 (W2 m ρ c) (Proc.devRef .tc main_arg0) = _
    exact StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
  rw [h, W2_in0 m ρ c, V1_arg m ρ c main_arg0 (by decide)]

/-- The mean column: entry `ch` is the kernel's mean of channel `ch`. -/
theorem V3_v23_apply (c : Dev nD) (ch : Fin 32) :
    (V3 m ρ c main_v23 : Vec Ideal S32x1 .f32) (ix2 ch 0) = Cert.Spec.muK (aX m c) (aW1 m c) (ab1 m c) ch := by
  have e : (V3 m ρ c main_v23 : Vec Ideal S32x1 .f32)
      = shapeCast S32x1 (Host.divf (F := Ideal) (W2 m ρ c (Proc.devRef .tc main_v1_1))
          (broadcastInDim S32 ![] bcast_S_S32 (constant S_ .f32 0x49F42400#32))) shapeCasts_S32_S32x1 := by
    show StableHlo.after hostOps1 (W2 m ρ c) (Proc.devRef .tc main_v23) = _
    after_results <;> rfl
  rw [e, Cert.Lib.Column.shapeCast_a_a1_apply, hostDivf_apply, W2_v1_1, broadcastInDim_scalar_apply, constant_apply]
  unfold R0.G9 Cert.Spec.muK Cert.Spec.c2M
  rw [V1_arg m ρ c main_arg0 (by decide), V1_arg m ρ c main_arg2 (by decide), V1_arg m ρ c main_arg3 (by decide)]

/-- The sums the first call leaves, read with the arguments as launched. -/
theorem G9_apply (c : Dev nD) (ch : Fin 32) :
    R0.G9 (V1 m ρ) c (ix1 ch) = Cert.Spec.sumH (aX m c) (aW1 m c) (ab1 m c) ch := by
  unfold R0.G9
  rw [V1_arg m ρ c main_arg0 (by decide), V1_arg m ρ c main_arg2 (by decide), V1_arg m ρ c main_arg3 (by decide)]
theorem G10_apply (c : Dev nD) (ch : Fin 32) :
    R0.G10 (V1 m ρ) c (ix1 ch) = Cert.Spec.sumH2 (aX m c) (aW1 m c) (ab1 m c) ch := by
  unfold R0.G10
  rw [V1_arg m ρ c main_arg0 (by decide), V1_arg m ρ c main_arg2 (by decide), V1_arg m ρ c main_arg3 (by decide)]
theorem G11_apply (c : Dev nD) (s : Fin 8) (ch : Fin 32) :
    R0.G11 (V1 m ρ) c (ix2 s ch) = Cert.Spec.psum (aX m c) (aB m c) s ch := by
  unfold R0.G11
  rw [V1_arg m ρ c main_arg0 (by decide), segs_eq]
theorem G12_apply (c : Dev nD) (s : Fin 8) :
    R0.G12 (V1 m ρ) c (ix1 s) = Cert.Spec.cnt (aB m c) s := by
  unfold R0.G12
  rw [segs_eq]
theorem G8_apply (c : Dev nD) (r : Fin 2000000) (u : Fin 1) :
    R0.G8 (V1 m ρ) c (ix2 r u) = Cert.Spec.mask (aX m c) (aMW1 m c) (amb1 m c) (aMW2 m c) (amb2 m c) r := by
  unfold R0.G8
  rw [V1_arg m ρ c main_arg0 (by decide), V1_arg m ρ c main_arg8 (by decide), V1_arg m ρ c main_arg9 (by decide),
    V1_arg m ρ c main_arg10 (by decide), V1_arg m ρ c main_arg11 (by decide)]

/-- The variance column: entry `ch` is the kernel's variance of channel `ch`. -/
theorem V3_v24_apply (c : Dev nD) (ch : Fin 32) :
    (V3 m ρ c main_v24 : Vec Ideal S32x1 .f32) (ix2 ch 0) = Cert.Spec.varK (aX m c) (aW1 m c) (ab1 m c) ch := by
  have e : (V3 m ρ c main_v24 : Vec Ideal S32x1 .f32)
      = shapeCast S32x1 (maximumf (F := Ideal)
          (subf (Host.divf (W2 m ρ c (Proc.devRef .tc main_v1_2))
              (broadcastInDim S32 ![] bcast_S_S32 (constant S_ .f32 0x49F42400#32)))
            (mulf (Host.divf (W2 m ρ c (Proc.devRef .tc main_v1_1))
                (broadcastInDim S32 ![] bcast_S_S32 (constant S_ .f32 0x49F42400#32)))
              (Host.divf (W2 m ρ c (Proc.devRef .tc main_v1_1))
                (broadcastInDim S32 ![] bcast_S_S32 (constant S_ .f32 0x49F42400#32)))))
          (broadcastInDim S32 ![] bcast_S_S32 (constant S_ .f32 0x00000000#32))) shapeCasts_S32_S32x1 := by
    show StableHlo.after hostOps1 (W2 m ρ c) (Proc.devRef .tc main_v24) = _
    after_results <;> rfl
  rw [e, Cert.Lib.Column.shapeCast_a_a1_apply, maximumf_apply, subf_apply, mulf_apply, hostDivf_apply, hostDivf_apply,
    W2_v1_1, W2_v1_2, broadcastInDim_scalar_apply, broadcastInDim_scalar_apply, constant_apply, constant_apply,
    G9_apply, G10_apply]
  rfl

/-! The other operands of the second call: the arguments laid out as columns and transposed weights -/

theorem W2_arg4 (c : Dev nD) : W2 m ρ c (Proc.devRef .tc main_arg4) = m ((c : Thread nD τ).loc main_arg4) :=
  W2_arg m ρ c main_arg4 (by decide) (by decide)
theorem W2_arg5 (c : Dev nD) : W2 m ρ c (Proc.devRef .tc main_arg5) = m ((c : Thread nD τ).loc main_arg5) :=
  W2_arg m ρ c main_arg5 (by decide) (by decide)
theorem W2_arg6 (c : Dev nD) : W2 m ρ c (Proc.devRef .tc main_arg6) = m ((c : Thread nD τ).loc main_arg6) :=
  W2_arg m ρ c main_arg6 (by decide) (by decide)
theorem W2_arg7 (c : Dev nD) : W2 m ρ c (Proc.devRef .tc main_arg7) = m ((c : Thread nD τ).loc main_arg7) :=
  W2_arg m ρ c main_arg7 (by decide) (by decide)
theorem W2_arg12 (c : Dev nD) : W2 m ρ c (Proc.devRef .tc main_arg12) = m ((c : Thread nD τ).loc main_arg12) :=
  W2_arg m ρ c main_arg12 (by decide) (by decide)
theorem W2_arg13 (c : Dev nD) : W2 m ρ c (Proc.devRef .tc main_arg13) = m ((c : Thread nD τ).loc main_arg13) :=
  W2_arg m ρ c main_arg13 (by decide) (by decide)
theorem W2_arg2 (c : Dev nD) : W2 m ρ c (Proc.devRef .tc main_arg2) = m ((c : Thread nD τ).loc main_arg2) :=
  (W2_in2 m ρ c).trans (V1_arg m ρ c main_arg2 (by decide))
theorem W2_arg3 (c : Dev nD) : W2 m ρ c (Proc.devRef .tc main_arg3) = m ((c : Thread nD τ).loc main_arg3) :=
  (W2_in3 m ρ c).trans (V1_arg m ρ c main_arg3 (by decide))

theorem V3_v25_apply (c : Dev nD) (ch : Fin 32) :
    (V3 m ρ c main_v25 : Vec Ideal S32x1 .f32) (ix2 ch 0) = agam m c (ix1 ch) := by
  have e : (V3 m ρ c main_v25 : Vec Ideal S32x1 .f32)
      = shapeCast S32x1 (W2 m ρ c (Proc.devRef .tc main_arg4)) shapeCasts_S32_S32x1 := by
    show StableHlo.after hostOps1 (W2 m ρ c) (Proc.devRef .tc main_v25) = _
    after_results <;> rfl
  rw [e, Cert.Lib.Column.shapeCast_a_a1_apply, W2_arg4]
theorem V3_v26_apply (c : Dev nD) (ch : Fin 32) :
    (V3 m ρ c main_v26 : Vec Ideal S32x1 .f32) (ix2 ch 0) = abet m c (ix1 ch) := by
  have e : (V3 m ρ c main_v26 : Vec Ideal S32x1 .f32)
      = shapeCast S32x1 (W2 m ρ c (Proc.devRef .tc main_arg5)) shapeCasts_S32_S32x1 := by
    show StableHlo.after hostOps1 (W2 m ρ c) (Proc.devRef .tc main_v26) = _
    after_results <;> rfl
  rw [e, Cert.Lib.Column.shapeCast_a_a1_apply, W2_arg5]
theorem V3_v21_apply (c : Dev nD) (ch : Fin 32) :
    (V3 m ρ c main_v21 : Vec Ideal S32x1 .f32) (ix2 ch 0) = ab1 m c (ix1 ch) := by
  have e : (V3 m ρ c main_v21 : Vec Ideal S32x1 .f32)
      = shapeCast S32x1 (W2 m ρ c (Proc.devRef .tc main_arg3)) shapeCasts_S32_S32x1 := by
    show StableHlo.after hostOps1 (W2 m ρ c) (Proc.devRef .tc main_v21) = _
    after_results <;> rfl
  rw [e, Cert.Lib.Column.shapeCast_a_a1_apply, W2_arg3]
theorem V3_v22_apply (c : Dev nD) (j : Fin 3) :
    (V3 m ρ c main_v22 : Vec Ideal S3x1 .f32) (ix2 j 0) = ab2 m c (ix1 j) := by
  have e : (V3 m ρ c main_v22 : Vec Ideal S3x1 .f32)
      = shapeCast S3x1 (W2 m ρ c (Proc.devRef .tc main_arg7)) shapeCasts_S3_S3x1 := by
    show StableHlo.after hostOps1 (W2 m ρ c) (Proc.devRef .tc main_v22) = _
    after_results <;> rfl
  rw [e, Cert.Lib.Column.shapeCast_a_a1_apply, W2_arg7]
theorem V3_v19_apply (c : Dev nD) (ch k : Fin 32) :
    (V3 m ρ c main_v19 : Vec Ideal S32x32 .f32) (ix2 ch k) = aW1 m c (ix2 k ch) := by
  have e : (V3 m ρ c main_v19 : Vec Ideal S32x32 .f32)
      = transpose S32x32 [1, 0] (W2 m ρ c (Proc.devRef .tc main_arg2)) transposes_S32x32_S32x32_1_0 := by
    show StableHlo.after hostOps1 (W2 m ρ c) (Proc.devRef .tc main_v19) = _
    after_results <;> rfl
  rw [e, ValueIdx.transpose_ix2_apply, W2_arg2]
theorem V3_v20_apply (c : Dev nD) (j : Fin 3) (ch : Fin 32) :
    (V3 m ρ c main_v20 : Vec Ideal S3x32 .f32) (ix2 j ch) = aW2 m c (ix2 ch j) := by
  have e : (V3 m ρ c main_v20 : Vec Ideal S3x32 .f32)
      = transpose S3x32 [1, 0] (W2 m ρ c (Proc.devRef .tc main_arg6)) transposes_S32x3_S3x32_1_0 := by
    show StableHlo.after hostOps1 (W2 m ρ c) (Proc.devRef .tc main_v20) = _
    after_results <;> rfl
  rw [e, ValueIdx.transpose_ix2_apply, W2_arg6]

/-! ## The four results -/

theorem W4_v27 (c : Dev nD) : W4 m ρ c (Proc.devRef .tc main_v27) = R1.G1 (V3 m ρ) c :=
  (W4_arr m ρ c 9).trans (R1.final1_9 (V3 m ρ) c)

/-- The offset head: the second call's result transposed, with the kernel's mean and variance. -/
theorem ker_v28 (c : Dev nD) (r : Fin 2000000) (j : Fin 3) :
    (W5 m ρ c (Proc.devRef .tc main_v28) : Vec Ideal S2000000x3 .f32) (ix2 r j)
      = Cert.Spec.ptoff (aX m c) (aW1 m c) (ab1 m c) (agam m c) (abet m c) (aW2 m c) (ab2 m c)
          (Cert.Spec.muK (aX m c) (aW1 m c) (ab1 m c)) (Cert.Spec.varK (aX m c) (aW1 m c) (ab1 m c)) r j := by
  have e : (W5 m ρ c (Proc.devRef .tc main_v28) : Vec Ideal S2000000x3 .f32)
      = transpose S2000000x3 [1, 0] (W4 m ρ c (Proc.devRef .tc main_v27)) transposes_S3x2000000_S2000000x3_1_0 := by
    show StableHlo.after hostOps2 (W4 m ρ c) (Proc.devRef .tc main_v28) = _
    after_results <;> rfl
  rw [e, ValueIdx.transpose_ix2_apply, W4_v27]
  unfold R1.G1
  rw [V3_arg0]
  exact Cert.Spec.ptT_eq_ptoff (aX m c) (aW1 m c) (ab1 m c) (agam m c) (abet m c) (aW2 m c) (ab2 m c) _ _
    _ _ _ _ _ _ _ _ (V3_v23_apply m ρ c) (V3_v24_apply m ρ c) (V3_v25_apply m ρ c) (V3_v26_apply m ρ c)
    (V3_v19_apply m ρ c) (V3_v21_apply m ρ c) (V3_v20_apply m ρ c) (V3_v22_apply m ρ c) j r

/-- The mask head: the first call's per-row result, untouched by everything after it. -/
theorem ker_v1_0 (c : Dev nD) (r : Fin 2000000) (u : Fin 1) :
    (W5 m ρ c (Proc.devRef .tc main_v1_0) : Vec Ideal S2000000x1 .f32) (ix2 r u)
      = Cert.Spec.mask (aX m c) (aMW1 m c) (amb1 m c) (aMW2 m c) (amb2 m c) r := by
  have e5 : W5 m ρ c (Proc.devRef .tc main_v1_0) = W4 m ρ c (Proc.devRef .tc main_v1_0) := by
    show StableHlo.after hostOps2 (W4 m ρ c) (Proc.devRef .tc main_v1_0) = _
    after_results
  have e4 : W4 m ρ c (Proc.devRef .tc main_v1_0) = W3 m ρ c (Proc.devRef .tc main_v1_0) :=
    W4_of_ne m ρ c main_v1_0 (by decide)
  have e3 : W3 m ρ c (Proc.devRef .tc main_v1_0) = W2 m ρ c (Proc.devRef .tc main_v1_0) := by
    show StableHlo.after hostOps1 (W2 m ρ c) (Proc.devRef .tc main_v1_0) = _
    after_results
  rw [e5, e4, e3, W2_v1_0, G8_apply]

/-- The per-segment count not below one, as the host arithmetic lays it out over the pooled sums. -/
theorem denom_apply (c : Dev nD) (s : Fin 8) (ch : Fin 32) :
    (broadcastInDim S8x32 ![0, 1] bcast_S8x1_S8x32_0_1 (broadcastInDim S8x1 ![0] bcast_S8_S8x1_0
      (maximumf (F := Ideal) (W2 m ρ c (Proc.devRef .tc main_v1_4))
        (broadcastInDim S8 ![] bcast_S_S8 (constant S_ .f32 0x3F800000#32)))) : Vec Ideal S8x32 .f32) (ix2 s ch)
      = max (Cert.Spec.cnt (aB m c) s) Cert.Spec.c1 := by
  rw [broadcastInDim_apply _ _ _ (ix2 s ch) (ix2 s (0 : Fin 1))
      (by intro a; match a with | ⟨0, _⟩ => rfl | ⟨1, _⟩ => rfl),
    broadcastInDim_apply _ _ _ (ix2 s (0 : Fin 1)) (ix1 s) (by intro a; match a with | ⟨0, _⟩ => rfl),
    maximumf_apply, W2_v1_4, G12_apply, broadcastInDim_scalar_apply, constant_apply]
  rfl

/-- The pooled features. -/
theorem ker_v14 (c : Dev nD)
    (hX : ∀ i, ∃ x : ℝ, (m ((c : Thread nD τ).loc main_arg0) : S2000000x32.Idx → EReal) i = (x : EReal))
    (s : Fin 8) (ch : Fin 32) :
    (W5 m ρ c (Proc.devRef .tc main_v14) : Vec Ideal S8x32 .f32) (ix2 s ch)
      = Cert.Spec.pooled (aX m c) (aB m c) s ch := by
  have e5 : W5 m ρ c (Proc.devRef .tc main_v14) = W4 m ρ c (Proc.devRef .tc main_v14) := by
    show StableHlo.after hostOps2 (W4 m ρ c) (Proc.devRef .tc main_v14) = _
    after_results
  have e4 : W4 m ρ c (Proc.devRef .tc main_v14) = W3 m ρ c (Proc.devRef .tc main_v14) :=
    W4_of_ne m ρ c main_v14 (by decide)
  have e3 : (W3 m ρ c (Proc.devRef .tc main_v14) : Vec Ideal S8x32 .f32)
      = Host.divf (F := Ideal) (W2 m ρ c (Proc.devRef .tc main_v1_3))
          (broadcastInDim S8x32 ![0, 1] bcast_S8x1_S8x32_0_1 (broadcastInDim S8x1 ![0] bcast_S8_S8x1_0
            (maximumf (W2 m ρ c (Proc.devRef .tc main_v1_4))
              (broadcastInDim S8 ![] bcast_S_S8 (constant S_ .f32 0x3F800000#32))))) := by
    show StableHlo.after hostOps1 (W2 m ρ c) (Proc.devRef .tc main_v14) = _
    after_results <;> rfl
  rw [e5, e4, e3, hostDivf_apply, W2_v1_3 m ρ c hX, G11_apply, denom_apply]
  exact Cert.Spec.pooledK_eq _ _ s ch

/-- The linear layer on the pooled features. -/
theorem ker_v18 (c : Dev nD)
    (hX : ∀ i, ∃ x : ℝ, (m ((c : Thread nD τ).loc main_arg0) : S2000000x32.Idx → EReal) i = (x : EReal))
    (s : Fin 8) (u : Fin 1) :
    (W5 m ρ c (Proc.devRef .tc main_v18) : Vec Ideal S8x1 .f32) (ix2 s u)
      = Cert.Spec.iou (aX m c) (aB m c) (aIW m c) (aib m c) s := by
  have e5 : W5 m ρ c (Proc.devRef .tc main_v18) = W4 m ρ c (Proc.devRef .tc main_v18) := by
    show StableHlo.after hostOps2 (W4 m ρ c) (Proc.devRef .tc main_v18) = _
    after_results
  have e4 : W4 m ρ c (Proc.devRef .tc main_v18) = W3 m ρ c (Proc.devRef .tc main_v18) :=
    W4_of_ne m ρ c main_v18 (by decide)
  have e3 : (W3 m ρ c (Proc.devRef .tc main_v18) : Vec Ideal S8x1 .f32)
      = addf (F := Ideal) (Host.dotGeneral (φ₁ := .f32) (φ₂ := .f32) dot_S8x32_S32x1_S8x1_1_0_0_1_n_n none
          (Host.divf (F := Ideal) (W2 m ρ c (Proc.devRef .tc main_v1_3))
            (broadcastInDim S8x32 ![0, 1] bcast_S8x1_S8x32_0_1 (broadcastInDim S8x1 ![0] bcast_S8_S8x1_0
              (maximumf (W2 m ρ c (Proc.devRef .tc main_v1_4))
                (broadcastInDim S8 ![] bcast_S_S8 (constant S_ .f32 0x3F800000#32))))))
          (W2 m ρ c (Proc.devRef .tc main_arg12) : Vec Ideal S32x1 .f32))
        (broadcastInDim S8x1 ![0, 1] bcast_S1x1_S8x1_0_1 (broadcastInDim S1x1 ![1] bcast_S1_S1x1_1
          (W2 m ρ c (Proc.devRef .tc main_arg13) : Vec Ideal S1 .f32))) := by
    show StableHlo.after hostOps1 (W2 m ρ c) (Proc.devRef .tc main_v18) = _
    after_results <;> rfl
  have hu : u = 0 := Subsingleton.elim _ _
  subst hu
  rw [e5, e4, e3, addf_apply]
  simp only [Host.dotGeneral]
  rw [Cert.Lib.PlainMatmul.dotGeneral_apply _ rfl rfl rfl rfl rfl rfl,
    broadcastInDim_apply _ _ _ (ix2 s (0 : Fin 1)) (ix2 (0 : Fin 1) (0 : Fin 1))
      (by intro a; match a with | ⟨0, _⟩ => rfl | ⟨1, _⟩ => rfl),
    broadcastInDim_apply _ _ _ (ix2 (0 : Fin 1) (0 : Fin 1)) (ix1 (0 : Fin 1)) (by intro a; match a with | ⟨0, _⟩ => rfl),
    W2_arg12, W2_arg13]
  unfold Cert.Spec.iou
  refine congrArg₂ (fun a b : EReal => a + b) (Finset.sum_congr rfl fun k _ => ?_) rfl
  rw [hostDivf_apply, W2_v1_3 m ρ c hX, G11_apply, denom_apply, Cert.Spec.pooledK_eq]

end Cert.KernelIdeal.KH

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«411966_j25761213841798_3_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.RefValue.lean ====
/-
  The reference's four results read at an index: each is the specification's function of the argument arrays.
-/
import proofs.«411966_j25761213841798_3_alg».proof.Proof.Gen.ReferenceIdeal.Read
import proofs.«411966_j25761213841798_3_alg».proof.Proof.Spec
import proofs.«411966_j25761213841798_3_alg».proof.Proof.LibRowGatherScatter
import proofs.«411966_j25761213841798_3_alg».proof.Proof.LibScatterAdd1
import Idealize.ShloMosaic.Lib.Pipeline.Value
import Idealize.ShloMosaic.Lib.ValueIdx
import Idealize.ShloMosaic.Lib.ValueLayout
import Idealize.ShloMosaic.PureOps.Ideal.Laws

noncomputable section

namespace Cert.RefSide

open Cert.ReferenceIdeal Cert.ReferenceIdeal.Read
open Idealize.ShloMosaic Idealize.ShloMosaic.TcCoe Idealize.SL.Sem Idealize.ShloMosaic.ValueIdx
open scoped BigOperators

/-! ## Index equations: the reference's composed index functions at explicit coordinates -/

private theorem lidx0 (r : Fin 2000000) (c k : Fin 32) : lidx_main_v0 (ix2 r c) k = ix2 r k :=
  funext fun a => Fin.ext (by match a with | ⟨0, _⟩ => rfl | ⟨1, _⟩ => rfl)
private theorem ridx0 (r : Fin 2000000) (c k : Fin 32) : ridx_main_v0 (ix2 r c) k = ix2 k c :=
  funext fun a => Fin.ext (by match a with | ⟨0, _⟩ => rfl | ⟨1, _⟩ => rfl)
private theorem idx12 (r : Fin 2000000) (c : Fin 32) : idx_main_v1 (idx_main_v2 (ix2 r c)) = ix1 c :=
  funext fun a => Fin.ext (by match a with | ⟨0, _⟩ => rfl)
private theorem idx4 (c : Fin 32) (k : Fin 2000000) : idx_main_v4 (ix1 c) k = ix2 k c :=
  funext fun a => Fin.ext (by match a with | ⟨0, _⟩ => rfl | ⟨1, _⟩ => rfl)
private theorem idx78 (r : Fin 2000000) (c : Fin 32) : idx_main_v7 (idx_main_v8 (ix2 r c)) = ix1 c :=
  funext fun a => Fin.ext (by match a with | ⟨0, _⟩ => rfl)
private theorem idx11 (c : Fin 32) (k : Fin 2000000) : idx_main_v11 (ix1 c) k = ix2 k c :=
  funext fun a => Fin.ext (by match a with | ⟨0, _⟩ => rfl | ⟨1, _⟩ => rfl)
private theorem idx1415 (r : Fin 2000000) (c : Fin 32) : idx_main_v14 (idx_main_v15 (ix2 r c)) = ix1 c :=
  funext fun a => Fin.ext (by match a with | ⟨0, _⟩ => rfl)
private theorem idx2021 (r : Fin 2000000) (c : Fin 32) : idx_main_v20 (idx_main_v21 (ix2 r c)) = ix1 c :=
  funext fun a => Fin.ext (by match a with | ⟨0, _⟩ => rfl)
private theorem idx2324 (r : Fin 2000000) (c : Fin 32) : idx_main_v23 (idx_main_v24 (ix2 r c)) = ix1 c :=
  funext fun a => Fin.ext (by match a with | ⟨0, _⟩ => rfl)
private theorem idx2627 (r : Fin 2000000) (c : Fin 32) : idx_main_v26 (idx_main_v27 (ix2 r c)) = ix1 c :=
  funext fun a => Fin.ext (by match a with | ⟨0, _⟩ => rfl)
private theorem lidx30 (r : Fin 2000000) (j : Fin 3) (k : Fin 32) : lidx_main_v30 (ix2 r j) k = ix2 r k :=
  funext fun a => Fin.ext (by match a with | ⟨0, _⟩ => rfl | ⟨1, _⟩ => rfl)
private theorem ridx30 (r : Fin 2000000) (j : Fin 3) (k : Fin 32) : ridx_main_v30 (ix2 r j) k = ix2 k j :=
  funext fun a => Fin.ext (by match a with | ⟨0, _⟩ => rfl | ⟨1, _⟩ => rfl)
private theorem idx3132 (r : Fin 2000000) (j : Fin 3) : idx_main_v31 (idx_main_v32 (ix2 r j)) = ix1 j :=
  funext fun a => Fin.ext (by match a with | ⟨0, _⟩ => rfl)

private theorem lidx34 (r : Fin 2000000) (c k : Fin 32) : lidx_main_v34 (ix2 r c) k = ix2 r k :=
  funext fun a => Fin.ext (by match a with | ⟨0, _⟩ => rfl | ⟨1, _⟩ => rfl)
private theorem ridx34 (r : Fin 2000000) (c k : Fin 32) : ridx_main_v34 (ix2 r c) k = ix2 k c :=
  funext fun a => Fin.ext (by match a with | ⟨0, _⟩ => rfl | ⟨1, _⟩ => rfl)
private theorem idx3536 (r : Fin 2000000) (c : Fin 32) : idx_main_v35 (idx_main_v36 (ix2 r c)) = ix1 c :=
  funext fun a => Fin.ext (by match a with | ⟨0, _⟩ => rfl)
private theorem lidx39 (r : Fin 2000000) (u : Fin 1) (k : Fin 32) : lidx_main_v39 (ix2 r u) k = ix2 r k :=
  funext fun a => Fin.ext (by match a with | ⟨0, _⟩ => rfl | ⟨1, _⟩ => rfl)
private theorem ridx39 (r : Fin 2000000) (u : Fin 1) (k : Fin 32) : ridx_main_v39 (ix2 r u) k = ix2 k 0 :=
  funext fun a => Fin.ext (by
    match a with
    | ⟨0, _⟩ => rfl
    | ⟨1, _⟩ => exact congrArg Fin.val (Subsingleton.elim u 0))
private theorem idx4041 (r : Fin 2000000) (u : Fin 1) : idx_main_v40 (idx_main_v41 (ix2 r u)) = ix1 0 :=
  funext fun a => Fin.ext (by match a with | ⟨0, _⟩ => rfl)

private theorem idx45 (n : Fin 2000000) : idx_main_v45 (ix2 n 0) = ix1 n :=
  funext fun a => Fin.ext (by match a with | ⟨0, _⟩ => rfl)
private theorem idx48 (n : Fin 2000000) : idx_main_v48 (ix2 n 0) = ix1 n :=
  funext fun a => Fin.ext (by match a with | ⟨0, _⟩ => rfl)
private theorem idx5253 (s : Fin 8) (c : Fin 32) : idx_main_v52 (idx_main_v53 (ix2 s c)) = ix1 s :=
  funext fun a => Fin.ext (by match a with | ⟨0, _⟩ => rfl)
private theorem lidx55 (s : Fin 8) (u : Fin 1) (k : Fin 32) : lidx_main_v55 (ix2 s u) k = ix2 s k :=
  funext fun a => Fin.ext (by match a with | ⟨0, _⟩ => rfl | ⟨1, _⟩ => rfl)
private theorem ridx55 (s : Fin 8) (u : Fin 1) (k : Fin 32) : ridx_main_v55 (ix2 s u) k = ix2 k 0 :=
  funext fun a => Fin.ext (by
    match a with
    | ⟨0, _⟩ => rfl
    | ⟨1, _⟩ => exact congrArg Fin.val (Subsingleton.elim u 0))
private theorem idx5657 (s : Fin 8) (u : Fin 1) : idx_main_v56 (idx_main_v57 (ix2 s u)) = ix1 0 :=
  funext fun a => Fin.ext (by match a with | ⟨0, _⟩ => rfl)

/-! ## The offset head -/

/-- The first linear layer at a row and a channel. -/
private theorem v3_at (x0 : Vec Ideal S2000000x32 .f32) (x2 : Vec Ideal S32x32 .f32) (x3 : Vec Ideal S32 .f32)
    (r : Fin 2000000) (c : Fin 32) :
    val_main_v3 (F := Ideal) x0 x2 x3 (ix2 r c) = Cert.Spec.hpre x0 x2 x3 r c := by
  rw [val_main_v3_apply, val_main_v0_apply, val_main_v2_apply, val_main_v1_apply]
  simp only [lidx0, ridx0, idx12, Ideal.addf_def, Cert.Spec.hpre]

/-- The mean over all rows of a channel of the first linear layer. -/
private theorem v6_at (x0 : Vec Ideal S2000000x32 .f32) (x2 : Vec Ideal S32x32 .f32) (x3 : Vec Ideal S32 .f32)
    (c : Fin 32) :
    val_main_v6 (F := Ideal) x0 x2 x3 (ix1 c) = Cert.Spec.muR x0 x2 x3 c := by
  rw [val_main_v6_apply, val_main_v4_apply, val_main_v5_apply, val_main_cst_apply, val_main_cst_0_apply]
  simp only [idx4, v3_at, Ideal.hostDivf_def, Ideal.ofBits_def, Cert.Spec.muR, Cert.Spec.sumH, Cert.Spec.c0,
    Cert.Spec.c2M]

/-- The mean over all rows of the squared distance of a channel from its mean. -/
private theorem v13_at (x0 : Vec Ideal S2000000x32 .f32) (x2 : Vec Ideal S32x32 .f32) (x3 : Vec Ideal S32 .f32)
    (c : Fin 32) :
    val_main_v13 (F := Ideal) x0 x2 x3 (ix1 c) = Cert.Spec.varR x0 x2 x3 c := by
  rw [val_main_v13_apply, val_main_v11_apply, val_main_v12_apply, val_main_cst_1_apply, val_main_cst_2_apply]
  simp only [idx11, val_main_v10_apply, val_main_v9_apply, val_main_v8_apply, val_main_v7_apply, idx78, v3_at, v6_at,
    Ideal.hostDivf_def, Ideal.mulf_def, Ideal.subf_def, Ideal.ofBits_def, Cert.Spec.varR, Cert.Spec.c0, Cert.Spec.c2M]

/-- The normalised, rectified channel at a row. -/
private theorem v29_at (x0 : Vec Ideal S2000000x32 .f32) (x2 : Vec Ideal S32x32 .f32) (x3 x4 x5 : Vec Ideal S32 .f32)
    (r : Fin 2000000) (c : Fin 32) :
    val_main_v29 (F := Ideal) x0 x2 x3 x4 x5 (ix2 r c)
      = Cert.Spec.hn x0 x2 x3 x4 x5 (Cert.Spec.muR x0 x2 x3) (Cert.Spec.varR x0 x2 x3) r c := by
  rw [val_main_v29_apply, val_main_v28_apply, val_main_v25_apply, val_main_v22_apply, val_main_v16_apply,
    val_main_v15_apply, val_main_v14_apply, val_main_v21_apply, val_main_v20_apply, val_main_v19_apply,
    val_main_v18_apply, val_main_v17_apply, val_main_cst_3_apply, val_main_v24_apply, val_main_v23_apply,
    val_main_v27_apply, val_main_v26_apply, val_main_call0_v0_apply, val_main_call0_cst_apply]
  simp only [idx1415, idx2021, idx2324, idx2627, v3_at, v6_at, v13_at, Ideal.addf_def, Ideal.mulf_def, Ideal.subf_def,
    Ideal.maximumf_def, Ideal.hostUnary_rsqrt_def, Ideal.ofBits_def, Cert.Spec.hn, Cert.Spec.c0, Cert.Spec.cEps]

/-- The offset head, with the reference's own mean and variance. -/
theorem ref_v33 (x0 : Vec Ideal S2000000x32 .f32) (x2 : Vec Ideal S32x32 .f32) (x3 x4 x5 : Vec Ideal S32 .f32)
    (x6 : Vec Ideal S32x3 .f32) (x7 : Vec Ideal S3 .f32) (r : Fin 2000000) (j : Fin 3) :
    val_main_v33 (F := Ideal) x0 x2 x3 x4 x5 x6 x7 (ix2 r j)
      = Cert.Spec.ptoff x0 x2 x3 x4 x5 x6 x7 (Cert.Spec.muR x0 x2 x3) (Cert.Spec.varR x0 x2 x3) r j := by
  rw [val_main_v33_apply, val_main_v30_apply, val_main_v32_apply, val_main_v31_apply]
  simp only [lidx30, ridx30, idx3132, v29_at, Ideal.addf_def, Cert.Spec.ptoff]

/-! ## The mask head -/

/-- The mask head. -/
theorem ref_v42 (x0 : Vec Ideal S2000000x32 .f32) (x8 : Vec Ideal S32x32 .f32) (x9 : Vec Ideal S32 .f32)
    (x10 : Vec Ideal S32x1 .f32) (x11 : Vec Ideal S1 .f32) (r : Fin 2000000) (u : Fin 1) :
    val_main_v42 (F := Ideal) x0 x8 x9 x10 x11 (ix2 r u) = Cert.Spec.mask x0 x8 x9 x10 x11 r := by
  rw [val_main_v42_apply, val_main_v39_apply, val_main_v41_apply, val_main_v40_apply]
  simp only [lidx39, ridx39, idx4041, val_main_v38_apply, val_main_v37_apply, val_main_v34_apply, val_main_v36_apply,
    val_main_v35_apply, val_main_call1_v0_apply, val_main_call1_cst_apply, lidx34, ridx34, idx3536,
    Ideal.addf_def, Ideal.mulf_def, Ideal.maximumf_def, Ideal.ofBits_def,
    Cert.Spec.mask, Cert.Spec.hpre, Cert.Spec.c0]

/-! ## The pooled head -/

/-- The count of a segment's rows: the zero word plus a one for every row whose word, read signed, is the segment. -/
private theorem v46_at (x1 : Vec Ideal S2000000 .i32) (s : Fin 8) :
    val_main_v46 (F := Ideal) x1 (ix1 s)
      = Cert.Spec.c0 + Cert.Spec.cnt (fun r => (x1 (ix1 r) : BitVec 32)) s := by
  unfold val_main_v46
  refine (Cert.LibScatterAdd1.scatterAdd_apply 8 2000000 scatter_S8_S2000000x1_S2000000_n_0_0_1 rfl rfl rfl rfl
    _ _ _ s).trans ?_
  rw [val_main_v44_apply, val_main_cst_5_apply]
  simp only [val_main_v45_apply, val_main_v43_apply, val_main_cst_4_apply, idx45, Ideal.ofBits_def, Cert.Spec.c0,
    Cert.Spec.cnt, Cert.Spec.c1]

/-- The row scatter that adds, as a program states it: the host operation at the ideal values is the exact
    accumulating scatter. -/
private theorem scatterAdd_rows_host {N D E w : ℕ} {φ : FTy}
    (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (n : Fin N) (c : Fin D) :
    Host.scatterAdd d x idx upd (ix2 n c)
      = (x (ix2 n c) + ∑ e : Fin E, if (idx (ix2 e 0)).toInt = (n.val : ℤ) then upd (ix2 e c) else 0 : EReal) :=
  Cert.Lib.RowGS.scatterAdd_rows_apply d h1 h2 h3 h4 x idx upd n c

/-- The sum of a feature over a segment's rows: the zero word plus the feature of every row of the segment. -/
private theorem v49_at (x0 : Vec Ideal S2000000x32 .f32) (x1 : Vec Ideal S2000000 .i32) (s : Fin 8) (c : Fin 32) :
    val_main_v49 (F := Ideal) x0 x1 (ix2 s c)
      = Cert.Spec.c0 + Cert.Spec.psum x0 (fun r => (x1 (ix1 r) : BitVec 32)) s c := by
  unfold val_main_v49
  refine (scatterAdd_rows_host scatter_S8x32_S2000000x1_S2000000x32_1_0_0_1 rfl rfl rfl rfl
    (val_main_v47 (F := Ideal)) (val_main_v48 (F := Ideal) x1) x0 s c).trans ?_
  rw [val_main_v47_apply, val_main_cst_6_apply]
  simp only [val_main_v48_apply, idx48, Ideal.ofBits_def, Cert.Spec.c0, Cert.Spec.psum]

/-- The pooled features. -/
theorem ref_v54 (x0 : Vec Ideal S2000000x32 .f32) (x1 : Vec Ideal S2000000 .i32) (s : Fin 8) (c : Fin 32) :
    val_main_v54 (F := Ideal) x0 x1 (ix2 s c)
      = Cert.Spec.pooled x0 (fun r => (x1 (ix1 r) : BitVec 32)) s c := by
  rw [val_main_v54_apply, val_main_v53_apply, val_main_v52_apply, val_main_v51_apply, val_main_v50_apply,
    val_main_cst_7_apply, idx5253, v46_at, v49_at]
  simp only [Ideal.hostDivf_def, Ideal.maximumf_def, Ideal.ofBits_def, Cert.Spec.pooled, Cert.Spec.c1]

/-- The linear layer on the pooled features. -/
theorem ref_v58 (x0 : Vec Ideal S2000000x32 .f32) (x1 : Vec Ideal S2000000 .i32) (x12 : Vec Ideal S32x1 .f32)
    (x13 : Vec Ideal S1 .f32) (s : Fin 8) (u : Fin 1) :
    val_main_v58 (F := Ideal) x0 x1 x12 x13 (ix2 s u)
      = Cert.Spec.iou x0 (fun r => (x1 (ix1 r) : BitVec 32)) x12 x13 s := by
  rw [val_main_v58_apply, val_main_v55_apply, val_main_v57_apply, val_main_v56_apply]
  simp only [lidx55, ridx55, idx5657, ref_v54, Ideal.addf_def, Cert.Spec.iou]

end Cert.RefSide

end
-- ==== Proof.lean ====
/-
  The certificate of a point-cloud head: 2 000 000 points of 32 features, three small heads.

  The kernel runs two tiled calls. The first streams the points in 125 tiles of 16 000 rows and, per tile, writes the
  mask head of the tile's rows and adds into four resident accumulators: the column sums of the offset head's first
  linear layer, the column sums of its squares, the per-segment sums of the rows (a 0/1 selection matrix times the rows,
  plus the same selection times the rows' rounding residual, which vanishes over the reals) and the per-segment counts.
  Host arithmetic turns the sums into the batch-normalisation mean `Σh/N` and variance `max(Σh²/N − mean², 0)` and into
  the pooled features; the second call recomputes the linear layer per tile in a channel-major layout, normalises,
  rectifies and applies the second linear layer; a transpose restores the row-major result.

  The reference computes the same heads on whole arrays: the variance as the mean of the squared distances from the
  mean, the per-segment sums and counts by a scatter that adds.

  Over the extended reals the two agree on finite inputs:
    * a sum over 2 000 000 rows is the sum of its 125 tile sums (addition is associative and commutative);
    * the mean of squared distances from the mean is the mean of the squares less the square of the mean, a number
      that is not negative, so the kernel's clamp at zero is the identity — this is the one law that needs the
      features, the first weight and its bias to be finite, which the precondition gives;
    * a 0/1 selection summed against the rows is the sum over the selected rows, and a row's residual `x − x` is zero
      for a finite `x`;
    * the channel-major layout holds the same numbers, and products commute.
  The frames of the two kernel programs and the kernel's run with its results named are generated; the reference's run
  and its read-at-an-index lemmas are generated; the first call's accumulation, the blocks-to-array steps, the host
  arithmetic between the calls, the laws above and the reading of the precondition are proved in the modules imported
  here.
-/
import proofs.«411966_j25761213841798_3_alg».proof.Defs
import proofs.«411966_j25761213841798_3_alg».proof.Proof.Gen.Kernel
import proofs.«411966_j25761213841798_3_alg».proof.Proof.Gen.Kernel.Skeleton
import proofs.«411966_j25761213841798_3_alg».proof.Proof.Gen.Kernel.Launch
import proofs.«411966_j25761213841798_3_alg».proof.Proof.Gen.Kernel.Points
import proofs.«411966_j25761213841798_3_alg».proof.Proof.Gen.Kernel.Frame
import proofs.«411966_j25761213841798_3_alg».proof.Proof.Gen.KernelIdeal
import proofs.«411966_j25761213841798_3_alg».proof.Proof.Gen.KernelIdeal.Skeleton
import proofs.«411966_j25761213841798_3_alg».proof.Proof.Gen.KernelIdeal.Launch
import proofs.«411966_j25761213841798_3_alg».proof.Proof.Gen.KernelIdeal.Points
import proofs.«411966_j25761213841798_3_alg».proof.Proof.Gen.KernelIdeal.Frame
import proofs.«411966_j25761213841798_3_alg».proof.Proof.Gen.ReferenceIdeal
import proofs.«411966_j25761213841798_3_alg».proof.Proof.Gen.ReferenceIdeal.Run
import proofs.«411966_j25761213841798_3_alg».proof.Proof.Gen.ReferenceIdeal.Read
import proofs.«411966_j25761213841798_3_alg».proof.Proof.Gen.Pre_finite_inputs
import proofs.«411966_j25761213841798_3_alg».proof.Proof.Spec
import proofs.«411966_j25761213841798_3_alg».proof.Proof.Algebra
import proofs.«411966_j25761213841798_3_alg».proof.Proof.Finite
import proofs.«411966_j25761213841798_3_alg».proof.Proof.RunValues
import proofs.«411966_j25761213841798_3_alg».proof.Proof.KernelHost
import proofs.«411966_j25761213841798_3_alg».proof.Proof.RefValue
import Idealize.ShloMosaic.Adequacy
import Idealize.ShloMosaic.Init
import Idealize.ShloMosaic.PureOps.IdealRules

set_option maxRecDepth 16384

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The ledger's one entry: widening back what was narrowed to bf16 is the identity over the extended reals. -/
theorem preserves : Cert.preserves_Kernel_KernelIdeal :=
  IdealRules.truncf_extf.statement Cert.KernelIdeal.S16000x32 .f32 .bf16

/-- From memories that agree on the fourteen arguments the two programs end with the same four results. -/
theorem algebraic : Cert.algebraic_KernelIdeal_ReferenceIdeal := by
  intro m ρ m' ρ' hpre hagree
  refine ⟨fun c => Cert.KernelIdeal.Gen.W5 m ρ c (Proc.devRef .tc Cert.KernelIdeal.main_v28),
    fun c => Cert.KernelIdeal.Gen.W5 m ρ c (Proc.devRef .tc Cert.KernelIdeal.main_v1_0),
    fun c => Cert.KernelIdeal.Gen.W5 m ρ c (Proc.devRef .tc Cert.KernelIdeal.main_v14),
    fun c => Cert.KernelIdeal.Gen.W5 m ρ c (Proc.devRef .tc Cert.KernelIdeal.main_v18),
    Cert.KernelIdeal.GenV.run_results m ρ, ?_⟩
  refine (θ_run Cert.ReferenceIdeal.defs _ _).mono (fun _ h c => ?_)
    (Cert.ReferenceIdeal.Value.run (F := Ideal) m' ρ')
  obtain ⟨h33, h42, h54, h58, hargs⟩ := h c
  obtain ⟨a0, a1, a2, a3, a4, a5, a6, a7, a8, a9, a10, a11, a12, a13⟩ := hagree c
  obtain ⟨hX, hW, hb⟩ := Cert.FiniteArgs.finite_args m hpre c
  refine ⟨h33.trans ?_, h42.trans ?_, h54.trans ?_, h58.trans ?_, hargs⟩
  · -- the offset head
    rw [a0, a2, a3, a4, a5, a6, a7]
    show Cert.ReferenceIdeal.Read.val_main_v33 (F := Ideal) _ _ _ _ _ _ _ = _
    funext i
    rw [eq_ix2 i]
    refine (Cert.RefSide.ref_v33 _ _ _ _ _ _ _ (i 0) (i 1)).trans ?_
    refine Eq.trans ?_ (Cert.KernelIdeal.KH.ker_v28 m ρ c (i 0) (i 1)).symm
    have hmu : Cert.Spec.muR (m ((c.tc : Thread _ _).loc Cert.KernelIdeal.main_arg0)) (m ((c.tc : Thread _ _).loc Cert.KernelIdeal.main_arg2)) (m ((c.tc : Thread _ _).loc Cert.KernelIdeal.main_arg3))
        = Cert.Spec.muK (m ((c.tc : Thread _ _).loc Cert.KernelIdeal.main_arg0)) (m ((c.tc : Thread _ _).loc Cert.KernelIdeal.main_arg2)) (m ((c.tc : Thread _ _).loc Cert.KernelIdeal.main_arg3)) :=
      funext fun ch => (Cert.Spec.muK_eq_muR _ _ _ ch).symm
    have hvar : Cert.Spec.varR (m ((c.tc : Thread _ _).loc Cert.KernelIdeal.main_arg0)) (m ((c.tc : Thread _ _).loc Cert.KernelIdeal.main_arg2)) (m ((c.tc : Thread _ _).loc Cert.KernelIdeal.main_arg3))
        = Cert.Spec.varK (m ((c.tc : Thread _ _).loc Cert.KernelIdeal.main_arg0)) (m ((c.tc : Thread _ _).loc Cert.KernelIdeal.main_arg2)) (m ((c.tc : Thread _ _).loc Cert.KernelIdeal.main_arg3)) :=
      funext fun ch => (Cert.Spec.varK_eq_varR _ _ _ hX hW hb ch).symm
    rw [hmu, hvar]
  · -- the mask head
    rw [a0, a8, a9, a10, a11]
    show Cert.ReferenceIdeal.Read.val_main_v42 (F := Ideal) _ _ _ _ _ = _
    funext i
    rw [eq_ix2 i]
    refine (Cert.RefSide.ref_v42 _ _ _ _ _ (i 0) (i 1)).trans ?_
    exact (Cert.KernelIdeal.KH.ker_v1_0 m ρ c (i 0) (i 1)).symm
  · -- the pooled features
    rw [a0, a1]
    show Cert.ReferenceIdeal.Read.val_main_v54 (F := Ideal) _ _ = _
    funext i
    rw [eq_ix2 i]
    refine (Cert.RefSide.ref_v54 _ _ (i 0) (i 1)).trans ?_
    exact (Cert.KernelIdeal.KH.ker_v14 m ρ c hX (i 0) (i 1)).symm
  · -- the linear layer on the pooled features
    rw [a0, a1, a12, a13]
    show Cert.ReferenceIdeal.Read.val_main_v58 (F := Ideal) _ _ _ _ = _
    funext i
    rw [eq_ix2 i]
    refine (Cert.RefSide.ref_v58 _ _ _ _ (i 0) (i 1)).trans ?_
    exact (Cert.KernelIdeal.KH.ker_v18 m ρ c hX (i 0) (i 1)).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
